-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S256 : Shape := ⟨1, ![256]⟩
abbrev S16384x2048 : Shape := ⟨2, ![16384, 2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_

variable [Facts]

def fn {F : FTy → Type} [FloatOps F] (main_arg0 : FVec F S256x2048 .f32) (main_arg1 : IVec S256 32) (main_arg2 : FVec F S16384x2048 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S16384x2048 .f32 := Host.absf main_arg2
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Kernel.lean ====
abbrev S256x2048 : Shape := ⟨2, ![256, 2048]⟩
abbrev S256 : Shape := ⟨1, ![256]⟩
abbrev S16384x2048 : Shape := ⟨2, ![16384, 2048]⟩
abbrev S_ : Shape := ⟨0, ![]⟩
abbrev S256x1 : Shape := ⟨2, ![256, 1]⟩
abbrev S2x3x256 : Shape := ⟨3, ![2, 3, 256]⟩
abbrev S1024x2048 : Shape := ⟨2, ![1024, 2048]⟩
abbrev S1x3x256 : Shape := ⟨3, ![1, 3, 256]⟩
abbrev S256x1024 : Shape := ⟨2, ![256, 1024]⟩
abbrev S1x256 : Shape := ⟨2, ![1, 256]⟩
abbrev S3x256 : Shape := ⟨2, ![3, 256]⟩
abbrev S1x1x256 : Shape := ⟨3, ![1, 1, 256]⟩

abbrev nBuf : Space → Nat
  | .hbm => 67
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S256, .i32⟩
  | .hbm, ⟨2, _⟩ => ⟨S16384x2048, .f32⟩
  | .hbm, ⟨3, _⟩ => ⟨S_, .i32⟩
  | .hbm, ⟨4, _⟩ => ⟨S256, .i32⟩
  | .hbm, ⟨5, _⟩ => ⟨S256, .i32⟩
  | .hbm, ⟨6, _⟩ => ⟨S_, .i32⟩
  | .hbm, ⟨7, _⟩ => ⟨S256, .i32⟩
  | .hbm, ⟨8, _⟩ => ⟨S256, .i1⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S256, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256x1, .i32⟩
  | .hbm, ⟨29, _⟩ => ⟨S2x3x256, .f32⟩
  | .hbm, ⟨30, _⟩ => ⟨S1x1x256, .f32⟩
  | .hbm, ⟨31, _⟩ => ⟨S256, .f32⟩
  | .hbm, ⟨32, _⟩ => ⟨S1x1x256, .f32⟩
  | .hbm, ⟨33, _⟩ => ⟨S256, .f32⟩
  | .hbm, ⟨34, _⟩ => ⟨S1x1x256, .f32⟩
  | .hbm, ⟨35, _⟩ => ⟨S256, .f32⟩
  | .hbm, ⟨36, _⟩ => ⟨S1x1x256, .f32⟩
  | .hbm, ⟨37, _⟩ => ⟨S256, .f32⟩
  | .hbm, ⟨38, _⟩ => ⟨S1x1x256, .f32⟩
  | .hbm, ⟨39, _⟩ => ⟨S256, .f32⟩
  | .hbm, ⟨40, _⟩ => ⟨S1x1x256, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S256, .i32⟩
  | .hbm, ⟨55, _⟩ => ⟨S_, .i32⟩
  | .hbm, ⟨56, _⟩ => ⟨S_, .i32⟩
  | .hbm, ⟨57, _⟩ => ⟨S_, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S_, .f32⟩
  | .hbm, ⟨62, _⟩ => ⟨S_, .f32⟩
  | .hbm, ⟨63, _⟩ => ⟨S_, .i32⟩
  | .hbm, ⟨64, _⟩ => ⟨S_, .i32⟩
  | .hbm, ⟨65, _⟩ => ⟨S_, .f32⟩
  | .hbm, ⟨66, _⟩ => ⟨S_, .f32⟩
  | .local _ .vmem, ⟨0, _⟩ => ⟨S256x2048, .f32⟩
  | .local _ .vmem, ⟨1, _⟩ => ⟨S1024x2048, .f32⟩
  | .local _ .vmem, ⟨2, _⟩ => ⟨S1024x2048, .f32⟩
  | .local _ .vmem, ⟨3, _⟩ => ⟨S256x1, .i32⟩
  | .local _ .vmem, ⟨4, _⟩ => ⟨S1x3x256, .f32⟩
  | .local _ .vmem, ⟨5, _⟩ => ⟨S1x3x256, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_c_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_c_5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_25 : BitVec 32 := 0#32
  let v52 : BitVec 1 := Scalar.cmpi .ne v51 c0_i32_25
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S256 : S_.BroadcastsInDim S256 (![] : Fin 0 → Fin S256.rank)
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  iota_S256x1024_d1_w32 : S256x1024.Iotas .tc 32 [1]
  broadcasts_S256x1_S256x1024 : S256x1.Broadcasts S256x1024
  reduces_S256x1024_S256 : S256x1024.Reduces [1] S256
  shapeCasts_S256x1_S256 : S256x1.ShapeCasts S256
  shapeCasts_S256_S1x256 : S256.ShapeCasts S1x256
  concatenates_S1x256_S1x256_S1x256_S3x256_d0 : Shape.Concatenates [S1x256, S1x256, S1x256] S3x256 0
  shapeCasts_S3x256_S1x3x256 : S3x256.ShapeCasts S1x3x256
  inb_S1x3x256_S1x3x256_0_0_0 : ∀ a, (![0, 0, 0] : Fin 3 → Nat) a + S1x3x256.size a ≤ S1x3x256.size a
  h_S1x3x256 : 0 < S1x3x256.numel
  slices_S2x3x256_S1x1x256_0_0_0 : S2x3x256.Slices ![0, 0, 0] S1x1x256
  shapeCasts_S1x1x256_S256 : S1x1x256.ShapeCasts S256
  slices_S2x3x256_S1x1x256_0_1_0 : S2x3x256.Slices ![0, 1, 0] S1x1x256
  slices_S2x3x256_S1x1x256_0_2_0 : S2x3x256.Slices ![0, 2, 0] S1x1x256
  slices_S2x3x256_S1x1x256_1_0_0 : S2x3x256.Slices ![1, 0, 0] S1x1x256
  slices_S2x3x256_S1x1x256_1_1_0 : S2x3x256.Slices ![1, 1, 0] S1x1x256
  slices_S2x3x256_S1x1x256_1_2_0 : S2x3x256.Slices ![1, 2, 0] S1x1x256
  natLt_1_32 : 1 < 32
  reducesTo_S256_S_d0 : S256.ReducesTo [0] S_
  h_S_ : 0 < S_.numel
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .f32 = 32 ∨ (Rect.block (s := S256x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .i32 = 32 ∨ (Rect.block (s := S256x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x256.size a ≤ S2x3x256.size a
  hwx0_3 : ∀ i : grid0.Coords, EltTy.bits .f32 = 32 ∨ (Rect.block (s := S2x3x256) S1x3x256.size (cc0_transform_3 i) (hinb0_3 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_arg0) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x3x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x2048 : Shape := ⟨2, ![256, 2048]⟩
abbrev S256 : Shape := ⟨1, ![256]⟩
abbrev S16384x2048 : Shape := ⟨2, ![16384, 2048]⟩
abbrev S_ : Shape := ⟨0, ![]⟩
abbrev S2048x16384 : Shape := ⟨2, ![2048, 16384]⟩
abbrev S256x16384 : Shape := ⟨2, ![256, 16384]⟩
abbrev S256x1 : Shape := ⟨2, ![256, 1]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 86
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256, .i32⟩
  | .hbm, ⟨2, _⟩ => ⟨S16384x2048, .f32⟩
  | .hbm, ⟨3, _⟩ => ⟨S_, .i32⟩
  | .hbm, ⟨4, _⟩ => ⟨S256, .i32⟩
  | .hbm, ⟨5, _⟩ => ⟨S256, .i32⟩
  | .hbm, ⟨6, _⟩ => ⟨S_, .i32⟩
  | .hbm, ⟨7, _⟩ => ⟨S256, .i32⟩
  | .hbm, ⟨8, _⟩ => ⟨S256, .i1⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S256, .i1⟩
  | .hbm, ⟨20, _⟩ => ⟨S2048x16384, .f32⟩
  | .hbm, ⟨21, _⟩ => ⟨S256x16384, .f32⟩
  | .hbm, ⟨22, _⟩ => ⟨S_, .f32⟩
  | .hbm, ⟨23, _⟩ => ⟨S256x16384, .f32⟩
  | .hbm, ⟨24, _⟩ => ⟨S256x16384, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256x1, .f32⟩
  | .hbm, ⟨31, _⟩ => ⟨S256x16384, .f32⟩
  | .hbm, ⟨32, _⟩ => ⟨S256x16384, .f32⟩
  | .hbm, ⟨33, _⟩ => ⟨S256x16384, .f32⟩
  | .hbm, ⟨34, _⟩ => ⟨S_, .f32⟩
  | .hbm, ⟨35, _⟩ => ⟨S256, .f32⟩
  | .hbm, ⟨36, _⟩ => ⟨S256x1, .f32⟩
  | .hbm, ⟨37, _⟩ => ⟨S256x1, .f32⟩
  | .hbm, ⟨38, _⟩ => ⟨S256x16384, .f32⟩
  | .hbm, ⟨39, _⟩ => ⟨S256x16384, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S_, .i32⟩
  | .hbm, ⟨46, _⟩ => ⟨S256, .i32⟩
  | .hbm, ⟨47, _⟩ => ⟨S256, .i32⟩
  | .hbm, ⟨48, _⟩ => ⟨S256x1, .i32⟩
  | .hbm, ⟨49, _⟩ => ⟨S_, .i32⟩
  | .hbm, ⟨50, _⟩ => ⟨S256x1, .i32⟩
  | .hbm, ⟨51, _⟩ => ⟨S256x1, .i1⟩
  | .hbm, ⟨52, _⟩ => ⟨S_, .i32⟩
  | .hbm, ⟨53, _⟩ => ⟨S256x1, .i32⟩
  | .hbm, ⟨54, _⟩ => ⟨S256x1, .i32⟩
  | .hbm, ⟨55, _⟩ => ⟨S256x1, .i32⟩
  | .hbm, ⟨56, _⟩ => ⟨S256x1x1, .i32⟩
  | .hbm, ⟨57, _⟩ => ⟨S1, .i32⟩
  | .hbm, ⟨58, _⟩ => ⟨S_, .i32⟩
  | .hbm, ⟨59, _⟩ => ⟨S256x1x1, .i32⟩
  | .hbm, ⟨60, _⟩ => ⟨S256x1x1, .i1⟩
  | .hbm, ⟨61, _⟩ => ⟨S1x1x1, .i32⟩
  | .hbm, ⟨62, _⟩ => ⟨S256x1x1, .i32⟩
  | .hbm, ⟨63, _⟩ => ⟨S256x1x1, .i1⟩
  | .hbm, ⟨64, _⟩ => ⟨S256x1x1, .i1⟩
  | .hbm, ⟨65, _⟩ => ⟨S_, .i1⟩
  | .hbm, ⟨66, _⟩ => ⟨S256x1, .i1⟩
  | .hbm, ⟨67, _⟩ => ⟨S256x1, .f32⟩
  | .hbm, ⟨68, _⟩ => ⟨S_, .f32⟩
  | .hbm, ⟨69, _⟩ => ⟨S256x1, .f32⟩
  | .hbm, ⟨70, _⟩ => ⟨S256x1, .f32⟩
  | .hbm, ⟨71, _⟩ => ⟨S256, .f32⟩
  | .hbm, ⟨72, _⟩ => ⟨S256, .f32⟩
  | .hbm, ⟨73, _⟩ => ⟨S256, .i32⟩
  | .hbm, ⟨74, _⟩ => ⟨S_, .i32⟩
  | .hbm, ⟨75, _⟩ => ⟨S_, .i32⟩
  | .hbm, ⟨76, _⟩ => ⟨S_, .f32⟩
  | .hbm, ⟨77, _⟩ => ⟨S_, .f32⟩
  | .hbm, ⟨78, _⟩ => ⟨S256, .f32⟩
  | .hbm, ⟨79, _⟩ => ⟨S256, .f32⟩
  | .hbm, ⟨80, _⟩ => ⟨S_, .f32⟩
  | .hbm, ⟨81, _⟩ => ⟨S_, .f32⟩
  | .hbm, ⟨82, _⟩ => ⟨S_, .i32⟩
  | .hbm, ⟨83, _⟩ => ⟨S_, .i32⟩
  | .hbm, ⟨84, _⟩ => ⟨S_, .f32⟩
  | .hbm, ⟨85, _⟩ => ⟨S_, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_c_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v14 : Ref sig .tc := ⟨.hbm, 39, rfl⟩
abbrev main_c_4 : Ref sig .tc := ⟨.hbm, 40, rfl⟩
abbrev main_c_5 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v15 : Ref sig .tc := ⟨.hbm, 47, rfl⟩
abbrev main_v16 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_cst : Ref sig .tc := ⟨.hbm, 68, rfl⟩
abbrev main_call3_v14 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_c_6 : Ref sig .tc := ⟨.hbm, 74, rfl⟩
abbrev main_v21 : Ref sig .tc := ⟨.hbm, 75, rfl⟩
abbrev main_cst_7 : Ref sig .tc := ⟨.hbm, 76, rfl⟩
abbrev main_call4_v0 : Ref sig .tc := ⟨.hbm, 77, rfl⟩
abbrev main_call4_v1 : Ref sig .tc := ⟨.hbm, 78, rfl⟩
abbrev main_v22 : Ref sig .tc := ⟨.hbm, 79, rfl⟩
abbrev main_cst_8 : Ref sig .tc := ⟨.hbm, 80, rfl⟩
abbrev main_v23 : Ref sig .tc := ⟨.hbm, 81, rfl⟩
abbrev main_c_9 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩

abbrev nD : Nat := 1
abbrev τ : Topo := Topo.v7x

variable {F : FTy → Type} [FloatOps F]

class Facts₀ : Prop where
  bcast_S_S256 : S_.BroadcastsInDim S256 (![] : Fin 0 → Fin S256.rank)
  transposes_S16384x2048_S2048x16384_1_0 : S16384x2048.Transposes [1, 0] S2048x16384
  bcast_S_S256x16384 : S_.BroadcastsInDim S256x16384 (![] : Fin 0 → Fin S256x16384.rank)
  reducesTo_S256x16384_S256_d1 : S256x16384.ReducesTo [1] S256
  h_S_ : 0 < S_.numel
  bcast_S256_S256x1_0 : S256.BroadcastsInDim S256x1 (![0] : Fin 1 → Fin S256x1.rank)
  bcast_S256x1_S256x16384_0_1 : S256x1.BroadcastsInDim S256x16384 (![0, 1] : Fin 2 → Fin S256x16384.rank)
  bcast_S_S256x1 : S_.BroadcastsInDim S256x1 (![] : Fin 0 → Fin S256x1.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  shapeCasts_S256x1_S256 : S256x1.ShapeCasts S256
  natLt_1_32 : 1 < 32
  reducesTo_S256_S_d0 : S256.ReducesTo [0] S_
  dot_S256x2048_S2048x16384_S256x16384_1_0_0_1_n_n_wf : DotDims.WF S256x2048 S2048x16384 S256x16384 [1] [0] [0] [1] [] []
  gather_S256x16384_S256x1x1_S256x1_n_1_0_0_1_2_11_wf : GatherDims.WF S256x16384 S256x1x1 S256x1 [] [1] [0] [1] [0] 2 ![1, 1]

variable [Facts₀]

def dot_S256x2048_S2048x16384_S256x16384_1_0_0_1_n_n : DotDims S256x2048 S2048x16384 S256x16384 where
  lhsContracting := [1]
  rhsContracting := [0]
  lhsNonContracting := [0]
  rhsNonContracting := [1]
  lhsBatch := []
  rhsBatch := []
  wf := dot_S256x2048_S2048x16384_S256x16384_1_0_0_1_n_n_wf
def gather_S256x16384_S256x1x1_S256x1_n_1_0_0_1_2_11 : GatherDims S256x16384 S256x1x1 S256x1 where
  offsetDims := []
  collapsedSliceDims := [1]
  operandBatchingDims := [0]
  startIndicesBatchingDims := [0]
  startIndexMap := [1]
  indexVectorDim := 2
  sliceSizes := ![1, 1]
  wf := gather_S256x16384_S256x1x1_S256x1_n_1_0_0_1_2_11_wf

class Facts : Prop extends Facts₀ where

variable [Facts]
-- ==== Proof.Pieces.lean ====
/-
  The pieces each control case of the kernel leaves in its three carried [256,1] buffers (running maximum, running
  sum, running target logit) and, at the last tile of a half, in the [1,3,256] output block — read back as values,
  generic in the float instance. Each buffer ends a point with one covering store (after a covering reset store at
  the first tile of a half), so its contents are that store's payload; a load placed after a store in the same point
  reads that store's payload, a load placed before it reads the entry contents.
-/
import proofs.«408512_j5033701671602_2_alg».proof.Proof.Gen.KernelIdeal.Frame
import Idealize.ShloMosaic.Lib.Pipeline.Value
import Idealize.ShloMosaic.Lib.Tactic

noncomputable section

namespace Cert.KernelIdeal.PieceValue

open Cert.KernelIdeal Cert.KernelIdeal.Gen
open Idealize.ShloMosaic Idealize.ShloMosaic.TcCoe Idealize.SL.Sem

variable {F : FTy → Type} [FloatOps F] [Named F]

/-- The zero offsets of a rank-2 block, as the constant function. -/
theorem hz : (![0, 0] : Fin 2 → Nat) = fun _ => 0 := funext fun a => by fin_cases a <;> rfl

/-- The zero offsets of a rank-3 block, as the constant function. -/
theorem hz3 : (![0, 0, 0] : Fin 3 → Nat) = fun _ => 0 := funext fun a => by fin_cases a <;> rfl

/-- One tile's update of the running maximum: the old maximum `mo` against the tile's row maxima of the scaled
    logits of `x0` against `x1`. -/
def stepM (x0 : Vec F S256x2048 .f32) (x1 : Vec F S1024x2048 .f32) (mo : Vec F S256x1 .f32) : Vec F S256x1 .f32 :=
  k0_pay3 (k0_pay10 x0 x1 mo)

/-- One tile's update of the running sum: the old sum `lo` rescaled by `exp (mo - m')` plus the tile's row sums of
    `exp (logit - m')`, with `m'` the updated maximum over the old maximum `mo`. -/
def stepL (x0 : Vec F S256x2048 .f32) (x1 : Vec F S1024x2048 .f32) (mo lo : Vec F S256x1 .f32) : Vec F S256x1 .f32 :=
  k0_pay1 (k0_pay11 x0 x1 mo mo lo)

/-- One tile's update of the running target logit: the old value `so` plus the tile's row sums of the scaled logits
    selected where the tile's column index equals the row's label in `x2`. -/
def stepS (i : grid0.Coords) (x0 : Vec F S256x2048 .f32) (x1 : Vec F S1024x2048 .f32) (x2 : Vec F S256x1 .i32)
    (so : Vec F S256x1 .f32) : Vec F S256x1 .f32 :=
  k0_pay2 (k0_pay8 x0 x1) (k0_pay9 i x2) so

/-! ## Case A: the first tile of a half — each scratch is reset, then updated -/

theorem sout_A_0 (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x3x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : cond0_0 i) (hc1 : ¬cond0_1 i)
    (x0 : Vec F S256x2048 .f32) (x1 : Vec F S1024x2048 .f32) (x2 : Vec F S256x1 .i32) :
    sout0_A_0 c i arg2 harg2 arg3 harg3 arg4 harg4 arg5 harg5 arg6 harg6 arg7 harg7 arg8 harg8 hc0 hc1 x0 x1 x2 = stepM x0 x1 (k0_pay5 (F := F)) := by
  unfold stepM sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S256x1) hz, View.readCov_unit_zero (S := S256x1) _ hz]
  simp only [View.readAt_eq_ld, harg2.read_unread, harg3.read_unread, harg4.read_unread, harg6.read_unread,
    harg7.read_unread, harg8.read_unread, View.ld_unit_zero (S := S256x2048) hz, View.ld_unit_zero (S := S1024x2048) hz,
    View.ld_unit_zero (S := S256x1) hz, View.readCov_unit_zero (S := S256x1) _ hz]

theorem sout_A_1 (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x3x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : cond0_0 i) (hc1 : ¬cond0_1 i)
    (x0 : Vec F S256x2048 .f32) (x1 : Vec F S1024x2048 .f32) (x2 : Vec F S256x1 .i32) :
    sout0_A_1 c i arg2 harg2 arg3 harg3 arg4 harg4 arg5 harg5 arg6 harg6 arg7 harg7 arg8 harg8 hc0 hc1 x0 x1 x2 = stepL x0 x1 (k0_pay5 (F := F)) (k0_pay6 (F := F)) := by
  unfold stepL sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S256x1) hz, View.readCov_unit_zero (S := S256x1) _ hz]
  simp only [View.readAt_eq_ld, harg2.read_unread, harg3.read_unread, harg4.read_unread, harg6.read_unread,
    harg7.read_unread, harg8.read_unread, View.ld_unit_zero (S := S256x2048) hz, View.ld_unit_zero (S := S1024x2048) hz,
    View.ld_unit_zero (S := S256x1) hz, View.readCov_unit_zero (S := S256x1) _ hz]

theorem sout_A_2 (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x3x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : cond0_0 i) (hc1 : ¬cond0_1 i)
    (x0 : Vec F S256x2048 .f32) (x1 : Vec F S1024x2048 .f32) (x2 : Vec F S256x1 .i32) :
    sout0_A_2 c i arg2 harg2 arg3 harg3 arg4 harg4 arg5 harg5 arg6 harg6 arg7 harg7 arg8 harg8 hc0 hc1 x0 x1 x2 = stepS i x0 x1 x2 (k0_pay7 (F := F)) := by
  unfold stepS sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S256x1) hz, View.readCov_unit_zero (S := S256x1) _ hz]
  simp only [View.readAt_eq_ld, harg2.read_unread, harg3.read_unread, harg4.read_unread, harg6.read_unread,
    harg7.read_unread, harg8.read_unread, View.ld_unit_zero (S := S256x2048) hz, View.ld_unit_zero (S := S1024x2048) hz,
    View.ld_unit_zero (S := S256x1) hz, View.readCov_unit_zero (S := S256x1) _ hz]

/-! ## Case B: a middle tile — each scratch is updated from its entry contents -/

theorem sout_B_0 (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x3x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : ¬cond0_1 i)
    (x0 : Vec F S256x2048 .f32) (x1 : Vec F S1024x2048 .f32) (x2 : Vec F S256x1 .i32) (xs0 : Vec F S256x1 .f32) (xs1 : Vec F S256x1 .f32) (xs2 : Vec F S256x1 .f32) :
    sout0_B_0 c i arg2 harg2 arg3 harg3 arg4 harg4 arg5 harg5 arg6 harg6 arg7 harg7 arg8 harg8 hc0 hc1 x0 x1 x2 xs0 xs1 xs2 = stepM x0 x1 xs0 := by
  unfold stepM sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S256x1) hz]
  simp only [View.readAt_eq_ld, harg2.read_unread, harg3.read_unread, harg4.read_unread, harg6.read_unread,
    harg7.read_unread, harg8.read_unread, View.ld_unit_zero (S := S256x2048) hz, View.ld_unit_zero (S := S1024x2048) hz,
    View.ld_unit_zero (S := S256x1) hz, View.readCov_unit_zero (S := S256x1) _ hz]

theorem sout_B_1 (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x3x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : ¬cond0_1 i)
    (x0 : Vec F S256x2048 .f32) (x1 : Vec F S1024x2048 .f32) (x2 : Vec F S256x1 .i32) (xs0 : Vec F S256x1 .f32) (xs1 : Vec F S256x1 .f32) (xs2 : Vec F S256x1 .f32) :
    sout0_B_1 c i arg2 harg2 arg3 harg3 arg4 harg4 arg5 harg5 arg6 harg6 arg7 harg7 arg8 harg8 hc0 hc1 x0 x1 x2 xs0 xs1 xs2 = stepL x0 x1 xs0 xs1 := by
  unfold stepL sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S256x1) hz]
  simp only [View.readAt_eq_ld, harg2.read_unread, harg3.read_unread, harg4.read_unread, harg6.read_unread,
    harg7.read_unread, harg8.read_unread, View.ld_unit_zero (S := S256x2048) hz, View.ld_unit_zero (S := S1024x2048) hz,
    View.ld_unit_zero (S := S256x1) hz, View.readCov_unit_zero (S := S256x1) _ hz]

theorem sout_B_2 (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x3x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : ¬cond0_1 i)
    (x0 : Vec F S256x2048 .f32) (x1 : Vec F S1024x2048 .f32) (x2 : Vec F S256x1 .i32) (xs0 : Vec F S256x1 .f32) (xs1 : Vec F S256x1 .f32) (xs2 : Vec F S256x1 .f32) :
    sout0_B_2 c i arg2 harg2 arg3 harg3 arg4 harg4 arg5 harg5 arg6 harg6 arg7 harg7 arg8 harg8 hc0 hc1 x0 x1 x2 xs0 xs1 xs2 = stepS i x0 x1 x2 xs2 := by
  unfold stepS sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S256x1) hz]
  simp only [View.readAt_eq_ld, harg2.read_unread, harg3.read_unread, harg4.read_unread, harg6.read_unread,
    harg7.read_unread, harg8.read_unread, View.ld_unit_zero (S := S256x2048) hz, View.ld_unit_zero (S := S1024x2048) hz,
    View.ld_unit_zero (S := S256x1) hz, View.readCov_unit_zero (S := S256x1) _ hz]

/-! ## Case C: the last tile of a half — updated as in case B, then the three results stored to the output block -/

theorem sout_C_0 (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x3x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : cond0_1 i)
    (x0 : Vec F S256x2048 .f32) (x1 : Vec F S1024x2048 .f32) (x2 : Vec F S256x1 .i32) (xs0 : Vec F S256x1 .f32) (xs1 : Vec F S256x1 .f32) (xs2 : Vec F S256x1 .f32) :
    sout0_C_0 c i arg2 harg2 arg3 harg3 arg4 harg4 arg5 harg5 arg6 harg6 arg7 harg7 arg8 harg8 hc0 hc1 x0 x1 x2 xs0 xs1 xs2 = stepM x0 x1 xs0 := by
  unfold stepM sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S256x1) hz]
  simp only [View.readAt_eq_ld, harg2.read_unread, harg3.read_unread, harg4.read_unread, harg6.read_unread,
    harg7.read_unread, harg8.read_unread, View.ld_unit_zero (S := S256x2048) hz, View.ld_unit_zero (S := S1024x2048) hz,
    View.ld_unit_zero (S := S256x1) hz, View.readCov_unit_zero (S := S256x1) _ hz]

theorem sout_C_1 (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x3x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : cond0_1 i)
    (x0 : Vec F S256x2048 .f32) (x1 : Vec F S1024x2048 .f32) (x2 : Vec F S256x1 .i32) (xs0 : Vec F S256x1 .f32) (xs1 : Vec F S256x1 .f32) (xs2 : Vec F S256x1 .f32) :
    sout0_C_1 c i arg2 harg2 arg3 harg3 arg4 harg4 arg5 harg5 arg6 harg6 arg7 harg7 arg8 harg8 hc0 hc1 x0 x1 x2 xs0 xs1 xs2 = stepL x0 x1 xs0 xs1 := by
  unfold stepL sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S256x1) hz]
  simp only [View.readAt_eq_ld, harg2.read_unread, harg3.read_unread, harg4.read_unread, harg6.read_unread,
    harg7.read_unread, harg8.read_unread, View.ld_unit_zero (S := S256x2048) hz, View.ld_unit_zero (S := S1024x2048) hz,
    View.ld_unit_zero (S := S256x1) hz, View.readCov_unit_zero (S := S256x1) _ hz]

theorem sout_C_2 (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x3x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : cond0_1 i)
    (x0 : Vec F S256x2048 .f32) (x1 : Vec F S1024x2048 .f32) (x2 : Vec F S256x1 .i32) (xs0 : Vec F S256x1 .f32) (xs1 : Vec F S256x1 .f32) (xs2 : Vec F S256x1 .f32) :
    sout0_C_2 c i arg2 harg2 arg3 harg3 arg4 harg4 arg5 harg5 arg6 harg6 arg7 harg7 arg8 harg8 hc0 hc1 x0 x1 x2 xs0 xs1 xs2 = stepS i x0 x1 x2 xs2 := by
  unfold stepS sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S256x1) hz]
  simp only [View.readAt_eq_ld, harg2.read_unread, harg3.read_unread, harg4.read_unread, harg6.read_unread,
    harg7.read_unread, harg8.read_unread, View.ld_unit_zero (S := S256x2048) hz, View.ld_unit_zero (S := S1024x2048) hz,
    View.ld_unit_zero (S := S256x1) hz, View.readCov_unit_zero (S := S256x1) _ hz]

theorem out_C_3 (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x3x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : cond0_1 i)
    (x0 : Vec F S256x2048 .f32) (x1 : Vec F S1024x2048 .f32) (x2 : Vec F S256x1 .i32) (xs0 : Vec F S256x1 .f32) (xs1 : Vec F S256x1 .f32) (xs2 : Vec F S256x1 .f32) :
    out0_C_3 c i arg2 harg2 arg3 harg3 arg4 harg4 arg5 harg5 arg6 harg6 arg7 harg7 arg8 harg8 hc0 hc1 x0 x1 x2 xs0 xs1 xs2
      = k0_pay4 (stepM x0 x1 xs0) (stepL x0 x1 xs0 xs1) (stepS i x0 x1 x2 xs2) := by
  unfold stepM stepL stepS out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1x3x256) hz3]
  simp only [View.readAt_eq_ld, harg2.read_unread, harg3.read_unread, harg4.read_unread, harg6.read_unread,
    harg7.read_unread, harg8.read_unread, View.ld_unit_zero (S := S256x2048) hz, View.ld_unit_zero (S := S1024x2048) hz,
    View.ld_unit_zero (S := S256x1) hz, View.readCov_unit_zero (S := S256x1) _ hz]

end Cert.KernelIdeal.PieceValue

end
-- ==== Proof.Chain.lean ====
/-
  The three scratch columns point by point.

  The kernel carries three [256,1] columns across the grid: the running maximum, the running sum of
  exponentials and the running target logit of each batch row.  At the first tile of a half of the
  bank they are reset (to `-∞`, `0`, `0`) and updated with the tile; at every other tile they are
  updated from what the tile before left.  `chain` is that recursion over the grid points; the found
  contents of the frame run (`outsAt0`) are `chain`, and at the last tile of a half the output block
  is the three updated columns packed as the rows of a [1,3,256] block.
-/
import proofs.«408512_j5033701671602_2_alg».proof.Proof.Pieces

noncomputable section

namespace Cert.KernelIdeal.ChainValue

open Cert.KernelIdeal Cert.KernelIdeal.Gen Cert.KernelIdeal.PieceValue
open Idealize.ShloMosaic Idealize.ShloMosaic.TcCoe Idealize.SL.Sem

variable {F : FTy → Type} [FloatOps F] [Named F]
variable (m : (ℓ : Loc nD τ sig) → Buf (Elt F) ℓ)

/-- The inputs' block at point `t`. -/
abbrev xblk (c : Dev nD) (t : Fin cfg0.N) : Vec F S256x2048 .f32 := iblk m c 0 t
/-- The bank's block at point `t`. -/
abbrev wblk (c : Dev nD) (t : Fin cfg0.N) : Vec F S1024x2048 .f32 := iblk m c 1 t
/-- The targets' block at point `t`. -/
abbrev tblk (c : Dev nD) (t : Fin cfg0.N) : Vec F S256x1 .i32 := iblk m c 2 t

/-- The three columns after a point that resets them first. -/
def fresh (c : Dev nD) (t : Fin cfg0.N) : Vec F S256x1 .f32 × Vec F S256x1 .f32 × Vec F S256x1 .f32 :=
  (stepM (xblk m c t) (wblk m c t) (k0_pay5 (F := F)),
   stepL (xblk m c t) (wblk m c t) (k0_pay5 (F := F)) (k0_pay6 (F := F)),
   stepS (grid0.coords t) (xblk m c t) (wblk m c t) (tblk m c t) (k0_pay7 (F := F)))

/-- The three columns after a point that updates what the point before left. -/
def next (c : Dev nD) (t : Fin cfg0.N) (p : Vec F S256x1 .f32 × Vec F S256x1 .f32 × Vec F S256x1 .f32) :
    Vec F S256x1 .f32 × Vec F S256x1 .f32 × Vec F S256x1 .f32 :=
  (stepM (xblk m c t) (wblk m c t) p.1,
   stepL (xblk m c t) (wblk m c t) p.1 p.2.1,
   stepS (grid0.coords t) (xblk m c t) (wblk m c t) (tblk m c t) p.2.2)

/-- The three columns after point `n`. -/
def chain (c : Dev nD) : (n : ℕ) → n < cfg0.N → Vec F S256x1 .f32 × Vec F S256x1 .f32 × Vec F S256x1 .f32
  | 0, h => fresh m c ⟨0, h⟩
  | n + 1, h => if (n + 1) % 8 = 0 then fresh m c ⟨n + 1, h⟩ else next m c ⟨n + 1, h⟩ (chain c n (Nat.lt_of_succ_lt h))

theorem chain_zero (c : Dev nD) (h : 0 < cfg0.N) : chain m c 0 h = fresh m c ⟨0, h⟩ := rfl

theorem chain_reset (c : Dev nD) (n : ℕ) (h : n + 1 < cfg0.N) (h0 : (n + 1) % 8 = 0) :
    chain m c (n + 1) h = fresh m c ⟨n + 1, h⟩ := by
  show (if (n + 1) % 8 = 0 then _ else _) = _
  rw [if_pos h0]

theorem chain_step (c : Dev nD) (n : ℕ) (h : n + 1 < cfg0.N) (h0 : ¬(n + 1) % 8 = 0) :
    chain m c (n + 1) h = next m c ⟨n + 1, h⟩ (chain m c n (Nat.lt_of_succ_lt h)) := by
  show (if (n + 1) % 8 = 0 then _ else _) = _
  rw [if_neg h0]

/-- What the run found in the three scratch buffers after point `n` is `chain`. -/
theorem outsAt_snd_eq (c : Dev nD) : ∀ (n : ℕ) (h : n < cfg0.N), (outsAt0 m c n h).2 = chain m c n h
  | 0, h => by
    rw [outsAt0_A m c ⟨0, h⟩ rfl (by show ¬(0 : ℕ) % 8 = 7; decide)]
    dsimp only
    rw [sout_A_0, sout_A_1, sout_A_2]
    rfl
  | n + 1, h => by
    have ih := outsAt_snd_eq c n (Nat.lt_of_succ_lt h)
    by_cases h0 : (n + 1) % 8 = 0
    · have h1 : ¬(n + 1) % 8 = 7 := by omega
      rw [outsAt0_A m c ⟨n + 1, h⟩ h0 h1, chain_reset m c n h h0]
      dsimp only
      rw [sout_A_0, sout_A_1, sout_A_2]
      rfl
    · rw [chain_step m c n h h0, ← ih]
      by_cases h1 : (n + 1) % 8 = 7
      · rw [outsAt0_C m c ⟨n + 1, h⟩ h0 h1]
        dsimp only
        rw [sout_C_0, sout_C_1, sout_C_2]
        rfl
      · rw [outsAt0_B m c ⟨n + 1, h⟩ h0 h1]
        dsimp only
        rw [sout_B_0, sout_B_1, sout_B_2]
        rfl

/-- At the last tile of a half the output block is the three updated columns, packed. -/
theorem outsAt_fst_eq (c : Dev nD) (t : Fin cfg0.N) (h1 : t.val % 8 = 7) :
    (outsAt0 m c t.val t.isLt).1
      = k0_pay4 (chain m c t.val t.isLt).1 (chain m c t.val t.isLt).2.1 (chain m c t.val t.isLt).2.2 := by
  obtain ⟨n, h⟩ := t
  cases n with
  | zero => exact absurd h1 (by show ¬(0 : ℕ) % 8 = 7; decide)
  | succ n =>
    have h0 : ¬(n + 1) % 8 = 0 := by dsimp only at h1; omega
    have ih := outsAt_snd_eq m c n (Nat.lt_of_succ_lt h)
    dsimp only
    rw [chain_step m c n h h0, ← ih, outsAt0_C m c ⟨n + 1, h⟩ h0 h1]
    dsimp only
    rw [out_C_3]
    rfl

end Cert.KernelIdeal.ChainValue

end
-- ==== Proof.Arr.lean ====
/-
  The kernel's result array after the region.

  The [2,3,256] result array is written twice: after the last tile of each half of the bank the
  [1,3,256] block of that half is written back, holding the three scratch columns of the half as its
  three rows.  So entry `(h, r, b)` of the array is column `r` (0 the maximum, 1 the sum of
  exponentials, 2 the target logit) of half `h` at batch row `b`, as they stand after point `8 h + 7`.
-/
import proofs.«408512_j5033701671602_2_alg».proof.Proof.Chain
import Idealize.ShloMosaic.Lib.Pipeline.Value
import Idealize.ShloMosaic.Lib.ValueIdx

noncomputable section

namespace Cert.KernelIdeal.ArrValue

open Cert.KernelIdeal Cert.KernelIdeal.Gen Cert.KernelIdeal.ChainValue
open Idealize.ShloMosaic Idealize.ShloMosaic.TcCoe Idealize.SL.Sem Idealize.ShloMosaic.ValueIdx
open Idealize.ShloMosaic.Pipeline (Dat)

variable {F : FTy → Type} [FloatOps F] [Named F]
variable (m : (ℓ : Loc nD τ sig) → Buf (Elt F) ℓ)

/-- The last point of half `h`. -/
def lastPt (h : Fin 2) : Fin cfg0.N := ⟨8 * h.val + 7, by rw [show cfg0.N = 16 from N_0]; omega⟩

/-- The packed block of half `h`. -/
def halfBlock (c : Dev nD) (h : Fin 2) : Vec F S1x3x256 .f32 :=
  k0_pay4 (chain m c (lastPt h).val (lastPt h).isLt).1 (chain m c (lastPt h).val (lastPt h).isLt).2.1
    (chain m c (lastPt h).val (lastPt h).isLt).2.2

/-- The result array: half `h`'s packed block at `(h, ·, ·)`. -/
def result (c : Dev nD) : Vec F S2x3x256 .f32 :=
  fun i => halfBlock m c (i 0) (ix3 ⟨0, Nat.one_pos⟩ (i 1) (i 2))

/-- The output window's block indices, decided once over the sixteen points. -/
theorem idx_facts3 : ∀ t : Fin cfg0.N,
    win0_3.index t (0 : Fin 3) = t.val / 8 ∧ win0_3.index t (1 : Fin 3) = 0 ∧ win0_3.index t (2 : Fin 3) = 0 :=
  (by decide +kernel : ∀ t : Fin grid0.N, _)

/-- An entry of `result` whose first coordinate is `h` is the entry of half `h`'s packed block at the
    other two coordinates. -/
theorem result_at (c : Dev nD) (h : Fin 2) (y : S1x3x256.Idx) (i : S2x3x256.Idx)
    (hi0 : (i 0).val = h.val) (hi1 : (i 1).val = (y 1).val) (hi2 : (i 2).val = (y 2).val) :
    result m c i = halfBlock m c h y := by
  have h0 : i 0 = h := Fin.ext hi0
  have y0 : (y 0).val < 1 := (y 0).isLt
  have hy : ix3 (⟨0, Nat.one_pos⟩ : Fin 1) (i 1) (i 2) = y := by
    funext a
    match a with
    | ⟨0, _⟩ => exact Fin.ext (by show 0 = (y 0).val; omega)
    | ⟨1, _⟩ => exact Fin.ext hi1
    | ⟨2, _⟩ => exact Fin.ext hi2
  show halfBlock m c (i 0) (ix3 ⟨0, Nat.one_pos⟩ (i 1) (i 2)) = _
  rw [h0]
  exact congrArg (halfBlock m c h) hy

/-- What a flushing point writes back is its half's block of `result`. -/
theorem flushed_eq (c : Dev nD) (t : Fin cfg0.N) (hf : (cfg0.win 3).flush t = true) :
    (dats m 0 c).flushed 3 t = ((cfg0.win 3).blk t).view.read (Elt F) (result m c) := by
  have h7 : t.val % 8 = 7 := (flush0_3 t).mp hf
  have hN : t.val < 16 := lt_of_lt_of_eq t.isLt (show cfg0.N = 16 from N_0)
  obtain ⟨h, rfl⟩ : ∃ h : Fin 2, t = lastPt h :=
    ⟨⟨t.val / 8, by omega⟩, Fin.ext (by show t.val = 8 * (t.val / 8) + 7; omega)⟩
  obtain ⟨e0, e1, e2⟩ := idx_facts3 (lastPt h)
  have hv : (lastPt h).val / 8 = h.val := by show (8 * h.val + 7) / 8 = h.val; omega
  show (cfg0.win 3).cut (grid0.coords (lastPt h)) ((dats m 0 c).after 3 (lastPt h)) = _
  rw [after0_3, outsAt_fst_eq m c (lastPt h) h7]
  funext y
  rw [View.read_apply]
  have y0 : (y 0).val < 1 := (y 0).isLt
  refine (result_at m c h y _ ?_ ?_ ?_).symm
  · show win0_3.index (lastPt h) (0 : Fin 3) * 1 + 1 * (y 0).val = h.val
    rw [e0, hv]; omega
  · show win0_3.index (lastPt h) (1 : Fin 3) * 3 + 1 * (y 1).val = (y 1).val
    rw [e1]; omega
  · show win0_3.index (lastPt h) (2 : Fin 3) * 256 + 1 * (y 2).val = (y 2).val
    rw [e2]; omega

/-- An index of the array is in point `t`'s block iff each coordinate is in the block's range. -/
theorem mem_blk (t : Fin cfg0.N) (i : S2x3x256.Idx) :
    i ∈ ((cfg0.win 3).blk t).view.set ↔ ∀ a : Fin 3, win0_3.index t a * S1x3x256.size a ≤ (i a).val ∧ (i a).val < win0_3.index t a * S1x3x256.size a + S1x3x256.size a := by
  show i ∈ ((View.whole main_v12).slice (win0_3.rect t)).set ↔ _
  rw [View.set_slice_whole, Rect.mem_set_unit]
  exact Iff.rfl

/-- THE ARRAY after the region is `result`: the two flushed blocks cover it. -/
theorem final (c : Dev nD) : (dats m 0 c).arrAt 3 cfg0.N = result m c :=
  (dats m 0 c).arrAt_eq_of_cover 3 (result m c) (flushed_eq m c) fun i => by
    have hi0 : (i 0).val < 2 := (i 0).isLt
    have hi1 : (i 1).val < 3 := (i 1).isLt
    have hi2 : (i 2).val < 256 := (i 2).isLt
    refine ⟨lastPt (i 0), (flush0_3 _).mpr (by show (8 * (i 0).val + 7) % 8 = 7; omega), ?_⟩
    rw [mem_blk]
    obtain ⟨e0, e1, e2⟩ := idx_facts3 (lastPt (i 0))
    have hv : (lastPt (i 0)).val / 8 = (i 0).val := by show (8 * (i 0).val + 7) / 8 = (i 0).val; omega
    intro a
    match a with
    | ⟨0, _⟩ => show win0_3.index (lastPt (i 0)) (0 : Fin 3) * 1 ≤ (i 0).val ∧ (i 0).val < win0_3.index (lastPt (i 0)) (0 : Fin 3) * 1 + 1; rw [e0, hv]; omega
    | ⟨1, _⟩ => show win0_3.index (lastPt (i 0)) (1 : Fin 3) * 3 ≤ (i 1).val ∧ (i 1).val < win0_3.index (lastPt (i 0)) (1 : Fin 3) * 3 + 3; rw [e1]; omega
    | ⟨2, _⟩ => show win0_3.index (lastPt (i 0)) (2 : Fin 3) * 256 ≤ (i 2).val ∧ (i 2).val < win0_3.index (lastPt (i 0)) (2 : Fin 3) * 256 + 256; rw [e2]; omega

end Cert.KernelIdeal.ArrValue

end
-- ==== Proof.Vocab.lean ====
/-
  The words shared by the two sides of the cross-entropy certificate.

  * `invTemp`: the scale of the logits, the reciprocal `268435456 / 13421773` of the temperature's
    single-precision value `13421773 / 268435456` (the number nearest to 0.05).
  * `logit X W b c`: the real logit of batch row `b` against bank row `c`,
    `(∑ k, X b k · W c k) · invTemp`, for real-valued inputs `X` (256 × 2048) and `W` (16384 × 2048);
    `0` for a column beyond the bank (never read).
  * `clipW w`: the target class of a label word `w`: the label less one, the special label 5554 sent to
    1023, then clamped into `[0, 16383]` (signed).  `tgtOf` is that class as a natural number.
  * `validW w`: whether a row counts: its class before clamping is non-negative and is not 1023.
  * `meanOver valid nll`: the mean of `nll` over the rows that count: the sum of `nll` where `valid` is
    set (and of `0` elsewhere) divided by the number of such rows, at least one.
-/
import Idealize.ShloMosaic.PureOps.Ideal
import Idealize.ShloMosaic.PureOps.Ideal.Laws
import Idealize.ShloMosaic.Lib.ValueIdx

noncomputable section

namespace CeVocab

open Idealize.ShloMosaic Idealize.ShloMosaic.ValueIdx
open scoped BigOperators

/-- The reciprocal of the temperature's single-precision value. -/
def invTemp : ℝ := 268435456 / 13421773

/-- The real logit of batch row `b` against bank row `c`. -/
def logit (X : Fin 256 → Fin 2048 → ℝ) (W : Fin 16384 → Fin 2048 → ℝ) (b : Fin 256) (c : ℕ) : ℝ :=
  if h : c < 16384 then (∑ k : Fin 2048, X b k * W ⟨c, h⟩ k) * invTemp else 0

/-- A label word less one, with the special label sent to the ignored class. -/
def shiftW (w : BitVec 32) : BitVec 32 :=
  Scalar.select (IntOp.cmpi .eq (IntOp.subi w 1#32) 5554#32) 1023#32 (IntOp.subi w 1#32)

/-- The target class of a label word: shifted, then clamped into `[0, 16383]`. -/
def clipW (w : BitVec 32) : BitVec 32 :=
  IntOp.minsi 16383#32 (IntOp.maxsi 0#32 (shiftW w))

/-- The target class as a natural number. -/
def tgtOf (w : BitVec 32) : ℕ := (clipW w).toNat

/-- Whether a row counts. -/
def validW (w : BitVec 32) : BitVec 1 :=
  IntOp.andi (IntOp.cmpi .sge (shiftW w) 0#32) (IntOp.cmpi .ne (shiftW w) 1023#32)

abbrev V256 : Shape := ⟨1, ![256]⟩
abbrev V0 : Shape := ⟨0, ![]⟩

/-- The mean of `nll` over the rows `valid` marks. -/
def meanOver (hb : V0.BroadcastsInDim V256 (![] : Fin 0 → Fin V256.rank)) (hr : V256.ReducesTo [0] V0) (h0 : 0 < V0.numel)
    (hlt : 1 < 32) (valid : IVec V256 1) (nll : FVec Ideal V256 .f32) : FVec Ideal V0 .f32 :=
  Host.divf
    (Host.reduceAdd (select valid nll (broadcastInDim V256 ![] hb (id (constant (F := Ideal) V0 .f32 0x00000000#32))))
      (constant (F := Ideal) V0 .f32 0x00000000#32) hr h0)
    (sitofp .f32 (maxsi (Host.reduce IntOp.addi (extui 32 valid hlt) (constantI V0 32 0#32) hr h0) (constantI V0 32 1#32)))

end CeVocab

end
-- ==== Proof.TailDefs.lean ====
/-
  The host lines around the kernel's region as functions of arrays, at the ideal instance: the column
  of target classes and the mask of the rows that count, computed from the labels before the region,
  and the row-by-row merge of the six rows of the [2,3,256] result array into the loss of each batch
  row after it; with each of them read at one batch row.
-/
import proofs.«408512_j5033701671602_2_alg».proof.Proof.Gen.KernelIdeal
import proofs.«408512_j5033701671602_2_alg».proof.Proof.Vocab
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TailValue

open Cert.KernelIdeal Cert.KernelIdeal.Gen
open Idealize.ShloMosaic Idealize.ShloMosaic.ValueIdx CeVocab

/-- Row `(h, r)` of a [2,3,256] array as a vector of 256 entries: the slice `[h, r, ·]` flattened. -/
def rowOf (A : FVec Ideal S2x3x256 .f32) (off : Fin 3 → Nat) (hs : S2x3x256.Slices off S1x1x256) : FVec Ideal S256 .f32 :=
  fun i => shapeCast S256 (extractStridedSlice S1x1x256 off A hs) shapeCasts_S1x1x256_S256 i

/-- The loss of each batch row from the six rows of the result array. -/
def nllOf (A : FVec Ideal S2x3x256 .f32) : FVec Ideal S256 .f32 :=
  subf
    (addf (maximumf (rowOf A ![0, 0, 0] slices_S2x3x256_S1x1x256_0_0_0) (rowOf A ![1, 0, 0] slices_S2x3x256_S1x1x256_1_0_0))
      (Host.log
        (addf
          (mulf (rowOf A ![0, 1, 0] slices_S2x3x256_S1x1x256_0_1_0)
            (Host.exp (subf (rowOf A ![0, 0, 0] slices_S2x3x256_S1x1x256_0_0_0)
              (maximumf (rowOf A ![0, 0, 0] slices_S2x3x256_S1x1x256_0_0_0) (rowOf A ![1, 0, 0] slices_S2x3x256_S1x1x256_1_0_0)))))
          (mulf (rowOf A ![1, 1, 0] slices_S2x3x256_S1x1x256_1_1_0)
            (Host.exp (subf (rowOf A ![1, 0, 0] slices_S2x3x256_S1x1x256_1_0_0)
              (maximumf (rowOf A ![0, 0, 0] slices_S2x3x256_S1x1x256_0_0_0) (rowOf A ![1, 0, 0] slices_S2x3x256_S1x1x256_1_0_0))))))))
    (addf (rowOf A ![0, 2, 0] slices_S2x3x256_S1x1x256_0_2_0) (rowOf A ![1, 2, 0] slices_S2x3x256_S1x1x256_1_2_0))

/-- The class of every row before clamping, as the host computes it. -/
def shiftVec (x1 : IVec S256 32) : IVec S256 32 :=
  select (cmpi .eq (subi x1 (broadcastInDim S256 ![] bcast_S_S256 (constantI S_ 32 1#32)))
      (broadcastInDim S256 ![] bcast_S_S256 (constantI S_ 32 5554#32)))
    (broadcastInDim S256 ![] bcast_S_S256 (id (constantI S_ 32 1023#32)))
    (subi x1 (broadcastInDim S256 ![] bcast_S_S256 (constantI S_ 32 1#32)))

/-- The mask of the rows that count, as the host computes it. -/
def validVec (x1 : IVec S256 32) : IVec S256 1 :=
  andi (cmpi .sge (shiftVec x1) (broadcastInDim S256 ![] bcast_S_S256 (constantI S_ 32 0#32)))
    (cmpi .ne (shiftVec x1) (broadcastInDim S256 ![] bcast_S_S256 (constantI S_ 32 1023#32)))

/-- The column of target classes, as the host computes it. -/
def tcVec (x1 : IVec S256 32) : IVec S256x1 32 :=
  fun i => shapeCast S256x1
    (minsi (broadcastInDim S256 ![] bcast_S_S256 (id (constantI S_ 32 16383#32)))
      (maxsi (broadcastInDim S256 ![] bcast_S_S256 (id (constantI S_ 32 0#32))) (shiftVec x1)))
    shapeCasts_S256_S256x1 i

/-! ## The definitions read at one batch row -/

/-- Row `(h, r)` of the array at entry `b`: the slice starts at `(h, r, 0)` and its two unit axes carry no position. -/
theorem rowOf_apply (A : FVec Ideal S2x3x256 .f32) (o0 o1 : ℕ) (hs : S2x3x256.Slices ![o0, o1, 0] S1x1x256)
    (h : Fin 2) (r : Fin 3) (hh : h.val = o0) (hr : r.val = o1) (b : Fin 256) :
    rowOf A ![o0, o1, 0] hs (ix1 b) = A (ix3 h r b) := by
  unfold rowOf
  refine (shapeCast_apply _ shapeCasts_S1x1x256_S256 (ix1 b)
    (ix3 (⟨0, Nat.one_pos⟩ : Fin 1) (⟨0, Nat.one_pos⟩ : Fin 1) b) ?_).trans ?_
  · rw [Shape.rowMajor_val_three, Shape.rowMajor_val_one]
    show (0 * 1 + 0) * 256 + b.val = b.val
    omega
  · exact extractStridedSlice_apply _ A hs _ (ix3 h r b) fun ax => match ax with
      | ⟨0, _⟩ => by show h.val = o0 + 0; omega
      | ⟨1, _⟩ => by show r.val = o1 + 0; omega
      | ⟨2, _⟩ => by show b.val = 0 + b.val; omega

/-- The loss of batch row `b`: the two halves' maxima joined, the two halves' sums of exponentials brought to the
    joined maximum and added, the logarithm of that, less the two halves' picked logits. -/
theorem nllOf_apply (A : FVec Ideal S2x3x256 .f32) (b : Fin 256) :
    nllOf A (ix1 b)
      = (max (A (ix3 (0 : Fin 2) (0 : Fin 3) b)) (A (ix3 (1 : Fin 2) (0 : Fin 3) b))
          + Ideal.log (A (ix3 (0 : Fin 2) (1 : Fin 3) b) * Ideal.exp (A (ix3 (0 : Fin 2) (0 : Fin 3) b) - max (A (ix3 (0 : Fin 2) (0 : Fin 3) b)) (A (ix3 (1 : Fin 2) (0 : Fin 3) b)))
              + A (ix3 (1 : Fin 2) (1 : Fin 3) b) * Ideal.exp (A (ix3 (1 : Fin 2) (0 : Fin 3) b) - max (A (ix3 (0 : Fin 2) (0 : Fin 3) b)) (A (ix3 (1 : Fin 2) (0 : Fin 3) b)))))
        - (A (ix3 (0 : Fin 2) (2 : Fin 3) b) + A (ix3 (1 : Fin 2) (2 : Fin 3) b)) := by
  have e00 := rowOf_apply A 0 0 slices_S2x3x256_S1x1x256_0_0_0 (0 : Fin 2) (0 : Fin 3) rfl rfl b
  have e10 := rowOf_apply A 1 0 slices_S2x3x256_S1x1x256_1_0_0 (1 : Fin 2) (0 : Fin 3) rfl rfl b
  have e01 := rowOf_apply A 0 1 slices_S2x3x256_S1x1x256_0_1_0 (0 : Fin 2) (1 : Fin 3) rfl rfl b
  have e11 := rowOf_apply A 1 1 slices_S2x3x256_S1x1x256_1_1_0 (1 : Fin 2) (1 : Fin 3) rfl rfl b
  have e02 := rowOf_apply A 0 2 slices_S2x3x256_S1x1x256_0_2_0 (0 : Fin 2) (2 : Fin 3) rfl rfl b
  have e12 := rowOf_apply A 1 2 slices_S2x3x256_S1x1x256_1_2_0 (1 : Fin 2) (2 : Fin 3) rfl rfl b
  rw [← e00, ← e10, ← e01, ← e11, ← e02, ← e12]
  rfl

/-- The class of a row before clamping is the word's. -/
theorem shiftVec_apply (x1 : IVec S256 32) (i : S256.Idx) : shiftVec x1 i = shiftW (x1 i) := rfl

/-- The target class of batch row `b` is the clamped class of its label word. -/
theorem tcVec_apply (x1 : IVec S256 32) (b : Fin 256) :
    tcVec x1 (ix2 b (⟨0, Nat.one_pos⟩ : Fin 1)) = clipW (x1 (ix1 b)) := by
  unfold tcVec
  refine (shapeCast_apply _ shapeCasts_S256_S256x1 (ix2 b (⟨0, Nat.one_pos⟩ : Fin 1)) (ix1 b) ?_).trans ?_
  · rw [Shape.rowMajor_val_one, Shape.rowMajor_val_two]
    show b.val = b.val * 1 + 0
    omega
  · rfl

/-- Whether batch row `b` counts is read off its label word. -/
theorem validVec_apply (x1 : IVec S256 32) (b : Fin 256) : validVec x1 (ix1 b) = validW (x1 (ix1 b)) := rfl

end Cert.KernelIdeal.TailValue

end
-- ==== Proof.Tail.lean ====
/-
  The host lines around the kernel's region, at the ideal instance.

  Before the region the host computes, from the labels, the column of target classes (`clipW`) and the
  mask of the rows that count (`validW`).  After it, the six rows of the [2,3,256] result array — the
  maximum, the sum of exponentials and the target logit of each half — are merged row by row into the
  loss of each batch row,

      M = max m₀ m₁,   nll = (M + log (l₀ · exp (m₀ - M) + l₁ · exp (m₁ - M))) - (s₀ + s₁),

  and the result is the mean of `nll` over the rows that count.
-/
import proofs.«408512_j5033701671602_2_alg».proof.Proof.Arr
import proofs.«408512_j5033701671602_2_alg».proof.Proof.Vocab
import proofs.«408512_j5033701671602_2_alg».proof.Proof.TailDefs
import Idealize.ShloMosaic.Lib.StableHlo.Run

noncomputable section

namespace Cert.KernelIdeal.TailValue

open Cert.KernelIdeal Cert.KernelIdeal.Gen Cert.KernelIdeal.ArrValue
open Idealize.ShloMosaic Idealize.ShloMosaic.TcCoe Idealize.SL.Sem Idealize.ShloMosaic.ValueIdx
open Idealize.ShloMosaic.StableHlo CeVocab

variable (m : (ℓ : Loc nD τ sig) → Buf (Elt Ideal) ℓ)

/-- The labels as the program was launched with them. -/
abbrev labels (c : Dev nD) : IVec S256 32 := m ((c : Thread nD τ).loc main_arg1)

set_option maxHeartbeats 4000000 in
/-- The mask of valid rows when the region is entered. -/
theorem V_valid (c : Dev nD) : (V m c main_v9 : IVec S256 1) = validVec (labels m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 4000000 in
/-- The column of target classes when the region is entered. -/
theorem V_tc (c : Dev nD) : (V m c main_v11 : IVec S256x1 32) = tcVec (labels m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 8000000 in
/-- THE RESULT of the program: the mean, over the valid rows, of the merged loss of the result array. -/
theorem tail_eq (c : Dev nD) :
    Pipeline.afterTail₀ cfgs (dats m) 0 (V0 m) [hostOps1, hostOps1_1, hostOps1_2] c main_v43
      = meanOver bcast_S_S256 reducesTo_S256_S_d0 h_S_ natLt_1_32 (validVec (labels m c)) (nllOf (result m c)) := by
  rw [← V_valid m c, ← final m c]
  have hA : Pipeline.withArrays (cfgs 0).spec c (V0 m c) (fun w => (dats m 0 c).arrAt w (cfgs 0).N) (Proc.devRef .tc main_v12)
      = (dats m 0 c).arrAt 3 cfg0.N :=
    Pipeline.withArrays_arr spec0 launch0.win.arr_inj c _ _ 3
  have hV : Pipeline.withArrays (cfgs 0).spec c (V0 m c) (fun w => (dats m 0 c).arrAt w (cfgs 0).N) (Proc.devRef .tc main_v9)
      = V m c main_v9 :=
    Pipeline.withArrays_of_ne _ c (V0 m c) _ main_v9 (by exact (by decide : ∀ w, Pipeline.arrRef spec0 w ≠ main_v9))
  unfold Pipeline.afterTail₀
  simp only [Gen.hostOps1, Gen.hostOps1_1, Gen.hostOps1_2, List.flatten_cons, List.flatten_nil, List.append_nil, List.cons_append, List.nil_append]
  after_results_simp
  rw [hA, hV]
  rfl

end Cert.KernelIdeal.TailValue

end
-- ==== Proof.LibOnlineLse.lean ====
/-
  The online log-sum-exp over column tiles, on the extended reals.

  A row of `C` real numbers `x 0, …, x (C - 1)` is cut into `T` tiles of width `B` (`C ≤ T * B`);
  the places of the last tiles beyond column `C` are padding and hold `⊥` (`-∞`).  Going through the
  tiles once, one keeps a running maximum `m` and a running sum `s` of exponentials taken relative to
  `m`:

      m 0 = ⊥,                 m (n + 1) = max (m n) (the maximum of tile n),
      s 0 = 0,                 s (n + 1) = exp (m n - m (n + 1)) * s n + ∑ j, exp (a n j - m (n + 1)).

  This file proves that after the last tile `m T` is the maximum `M` of the row, `s T` is the sum
  `S = ∑ k, exp (x k - M)` of the two-pass computation, both of them real numbers, and hence that
  `(m T + log (s T)) - xt` is the negated log-probability `-((xt - M) - log S)`.

  Every operation is the one of the extended reals: `+`, `-`, `*`, `max`, and the exponential and the
  logarithm extended by `exp ⊥ = 0`, `log 0 = ⊥`.  A tile's maximum is the fold of `max` from `⊥`
  over the tile's places and a tile's sum the plain finite sum over them; the two-pass side takes its
  maximum as `max ⊥ (the fold of max from ⊥ over the columns)` and its sum as `0 +` the finite sum.

  Why it is true.  The exponential of a padded place is `exp (⊥ - m) = exp ⊥ = 0`, so padding adds
  nothing to a sum, and `⊥` adds nothing to a maximum.  The first tile holds column `0`, so from the
  first tile on the running maximum is a real number `μ`; the invariant is that after `n` tiles `μ` is
  the maximum of the columns seen so far and the running sum is `∑ exp (x k - μ)` over those columns.
  A step replaces `μ` by the larger `μ'`: `exp (μ - μ') * exp (x k - μ) = exp (x k - μ')` carries
  the old sum over, and the new tile's terms are already taken relative to `μ'`.  (Before the first
  tile `m = ⊥` and `s = 0`, and `exp (⊥ - μ') * 0 = 0`.)  The sums are formed in the real numbers,
  where multiplication distributes over them, and carried to the extended reals term by term.
-/
import Idealize.ShloMosaic.PureOps.Ideal
import Idealize.ShloMosaic.PureOps.Ideal.Laws
import Mathlib.Data.EReal.Operations
import Mathlib.Data.Finset.Fold
import Mathlib.Data.Finset.Range
import Mathlib.Algebra.BigOperators.Fin
import Mathlib.Algebra.BigOperators.Group.Finset.Basic
import Mathlib.Analysis.SpecialFunctions.Exp
import Mathlib.Analysis.SpecialFunctions.Log.Basic

noncomputable section

namespace OnlineLse

open Idealize.ShloMosaic
open scoped BigOperators

/-! ## The recursion -/

section Recursion

variable {B : ℕ}

/-- The running maximum after `n` tiles: `⊥` before the first tile, and each tile joins its own maximum
    (the fold of `max` from `⊥` over the tile's `B` places) to it. -/
def runMax (a : ℕ → Fin B → EReal) : ℕ → EReal
  | 0 => ⊥
  | n + 1 => max (runMax a n) ((Finset.univ : Finset (Fin B)).fold max ⊥ (a n))

/-- The running sum of exponentials after `n` tiles, taken relative to the running maximum: `0` before
    the first tile; a tile rescales the old sum from the old maximum to the new one and adds the
    exponentials of its own places relative to the new maximum. -/
def runSum (a : ℕ → Fin B → EReal) : ℕ → EReal
  | 0 => 0
  | n + 1 => Ideal.exp (runMax a n - runMax a (n + 1)) * runSum a n
      + ∑ j : Fin B, Ideal.exp (a n j - runMax a (n + 1))

/-- Before the first tile the running maximum is `⊥`. -/
@[simp] theorem runMax_zero (a : ℕ → Fin B → EReal) : runMax a 0 = ⊥ := rfl

/-- One step of the running maximum, as an equation to rewrite with. -/
theorem runMax_succ (a : ℕ → Fin B → EReal) (n : ℕ) :
    runMax a (n + 1) = max (runMax a n) ((Finset.univ : Finset (Fin B)).fold max ⊥ (a n)) := rfl

/-- Before the first tile the running sum is `0`. -/
@[simp] theorem runSum_zero (a : ℕ → Fin B → EReal) : runSum a 0 = 0 := rfl

/-- One step of the running sum, as an equation to rewrite with. -/
theorem runSum_succ (a : ℕ → Fin B → EReal) (n : ℕ) :
    runSum a (n + 1) = Ideal.exp (runMax a n - runMax a (n + 1)) * runSum a n
      + ∑ j : Fin B, Ideal.exp (a n j - runMax a (n + 1)) := rfl

/-- With a single tile the running maximum is that tile's maximum joined to `⊥`. -/
theorem runMax_one (a : ℕ → Fin B → EReal) :
    runMax a 1 = max ⊥ ((Finset.univ : Finset (Fin B)).fold max ⊥ (a 0)) := rfl

/-- With a single tile the running sum is the rescaled initial `0` plus the tile's exponentials. -/
theorem runSum_one (a : ℕ → Fin B → EReal) :
    runSum a 1 = Ideal.exp (⊥ - runMax a 1) * 0 + ∑ j : Fin B, Ideal.exp (a 0 j - runMax a 1) := rfl

/-- The running maximum depends only on the tiles gone through. -/
theorem runMax_congr {a a' : ℕ → Fin B → EReal} :
    ∀ n : ℕ, (∀ i, i < n → a i = a' i) → runMax a n = runMax a' n
  | 0, _ => rfl
  | n + 1, h => by
    rw [runMax_succ, runMax_succ, runMax_congr n (fun i hi => h i (Nat.lt_succ_of_lt hi)),
      h n (Nat.lt_succ_self n)]

/-- The running sum depends only on the tiles gone through. -/
theorem runSum_congr {a a' : ℕ → Fin B → EReal} :
    ∀ n : ℕ, (∀ i, i < n → a i = a' i) → runSum a n = runSum a' n
  | 0, _ => rfl
  | n + 1, h => by
    rw [runSum_succ, runSum_succ, runSum_congr n (fun i hi => h i (Nat.lt_succ_of_lt hi)),
      runMax_congr n (fun i hi => h i (Nat.lt_succ_of_lt hi)), runMax_congr (n + 1) h,
      h n (Nat.lt_succ_self n)]

end Recursion

/-! ## Sums and maxima: from the reals to the extended reals, and over ranges -/

/-- The inclusion of the reals in the extended reals carries a finite sum to the sum of the images. -/
theorem coe_sum {ι : Type} (s : Finset ι) (f : ι → ℝ) :
    ((∑ i ∈ s, f i : ℝ) : EReal) = ∑ i ∈ s, ((f i : ℝ) : EReal) := by
  induction s using Finset.cons_induction with
  | empty => rw [Finset.sum_empty, Finset.sum_empty, EReal.coe_zero]
  | cons i s hi ih => rw [Finset.sum_cons, Finset.sum_cons, EReal.coe_add, ih]

/-- The maximum (from `⊥`) over the first `p + q` naturals is the larger of the maximum over the first
    `p` and the maximum over the next `q`, the latter indexed by `Fin q`. -/
theorem fold_max_range_add (f : ℕ → EReal) (p q : ℕ) :
    (Finset.range (p + q)).fold max ⊥ f
      = max ((Finset.range p).fold max ⊥ f)
          ((Finset.univ : Finset (Fin q)).fold max ⊥ fun j => f (p + j.val)) := by
  apply le_antisymm
  · rw [Finset.fold_max_le]
    refine ⟨bot_le, fun k hk => ?_⟩
    rw [Finset.mem_range] at hk
    by_cases h : k < p
    · exact le_max_of_le_left
        ((Finset.le_fold_max _).mpr (Or.inr ⟨k, Finset.mem_range.mpr h, le_rfl⟩))
    · refine le_max_of_le_right
        ((Finset.le_fold_max _).mpr (Or.inr ⟨⟨k - p, by omega⟩, Finset.mem_univ _, ?_⟩))
      show f k ≤ f (p + (k - p))
      rw [Nat.add_sub_cancel' (not_lt.mp h)]
  · refine max_le ?_ ?_
    · rw [Finset.fold_max_le]
      exact ⟨bot_le, fun k hk => (Finset.le_fold_max _).mpr
        (Or.inr ⟨k, Finset.mem_range.mpr (by have := Finset.mem_range.mp hk; omega), le_rfl⟩)⟩
    · rw [Finset.fold_max_le]
      exact ⟨bot_le, fun j _ => (Finset.le_fold_max _).mpr
        (Or.inr ⟨p + j.val, Finset.mem_range.mpr (by have := j.isLt; omega), le_rfl⟩)⟩

/-! ## The row: its maximum, its sum of exponentials, and its padded form -/

/-- The maximum of the real row `x` over the columns below `C` (joined with `x 0`, which is one of them
    as soon as `0 < C`). -/
def rowMax (x : ℕ → ℝ) (C : ℕ) : ℝ := (Finset.range C).fold max (x 0) x

/-- The two-pass sum of exponentials of the row relative to its maximum, a real number. -/
def rowSumExp (x : ℕ → ℝ) (C : ℕ) : ℝ := ∑ k ∈ Finset.range C, Real.exp (x k - rowMax x C)

/-- Every column below `C` is at most the row's maximum. -/
theorem le_rowMax (x : ℕ → ℝ) {C k : ℕ} (hk : k < C) : x k ≤ rowMax x C :=
  (Finset.le_fold_max _).mpr (Or.inr ⟨k, Finset.mem_range.mpr hk, le_rfl⟩)

/-- Some column below `C` is at least the row's maximum. -/
theorem exists_rowMax_le (x : ℕ → ℝ) {C : ℕ} (hC : 0 < C) : ∃ k, k < C ∧ rowMax x C ≤ x k := by
  have h : rowMax x C ≤ (Finset.range C).fold max (x 0) x := le_rfl
  rcases (Finset.le_fold_max _).mp h with h0 | ⟨k, hk, hk'⟩
  · exact ⟨0, hC, h0⟩
  · exact ⟨k, Finset.mem_range.mp hk, hk'⟩

/-- The row's maximum is attained at a column below `C`. -/
theorem exists_eq_rowMax (x : ℕ → ℝ) {C : ℕ} (hC : 0 < C) : ∃ k, k < C ∧ x k = rowMax x C := by
  obtain ⟨k, hk, h⟩ := exists_rowMax_le x hC
  exact ⟨k, hk, le_antisymm (le_rowMax x hk) h⟩

/-- The two-pass sum of exponentials is positive: it has the term of column `0`. -/
theorem rowSumExp_pos (x : ℕ → ℝ) {C : ℕ} (hC : 0 < C) : 0 < rowSumExp x C :=
  Finset.sum_pos (fun _ _ => Real.exp_pos _) ⟨0, Finset.mem_range.mpr hC⟩

/-- The row as the tiles hold it: column `k` below `C` is the real `x k`, a column from `C` on is `⊥`. -/
def pad (x : ℕ → ℝ) (C k : ℕ) : EReal := if k < C then ((x k : ℝ) : EReal) else ⊥

/-- The real value of a padded column's exponential relative to `μ`: `exp (x k - μ)` below `C`, `0` from
    `C` on. -/
def term (x : ℕ → ℝ) (C : ℕ) (μ : ℝ) (k : ℕ) : ℝ := if k < C then Real.exp (x k - μ) else 0

/-- The exponential of a padded column relative to a real `μ` is the real number `term`: on padding
    `⊥ - μ = ⊥` and `exp ⊥ = 0`. -/
theorem exp_pad_sub (x : ℕ → ℝ) (C : ℕ) (μ : ℝ) (k : ℕ) :
    Ideal.exp (pad x C k - (μ : EReal)) = ((term x C μ k : ℝ) : EReal) := by
  unfold pad term
  split_ifs with h
  · rw [← EReal.coe_sub, Ideal.exp_coe]
  · rw [EReal.bot_sub, Ideal.exp_bot, EReal.coe_zero]

/-- The maximum (from `⊥`) of the padded row over its first `N` columns is the real maximum of the
    row over the columns below `min C N`, as soon as there is one. -/
theorem fold_pad_eq (x : ℕ → ℝ) {C N : ℕ} (hC : 0 < C) (hN : 0 < N) :
    (Finset.range N).fold max ⊥ (pad x C) = ((rowMax x (min C N) : ℝ) : EReal) := by
  apply le_antisymm
  · rw [Finset.fold_max_le]
    refine ⟨bot_le, fun k hk => ?_⟩
    rw [Finset.mem_range] at hk
    unfold pad
    split_ifs with h
    · exact EReal.coe_le_coe_iff.mpr (le_rowMax x (lt_min h hk))
    · exact bot_le
  · obtain ⟨k, hk, h⟩ := exists_rowMax_le x (lt_min hC hN)
    have hkC : k < C := lt_of_lt_of_le hk (min_le_left _ _)
    have hkN : k < N := lt_of_lt_of_le hk (min_le_right _ _)
    rw [Finset.le_fold_max]
    refine Or.inr ⟨k, Finset.mem_range.mpr hkN, ?_⟩
    unfold pad
    rw [if_pos hkC]
    exact EReal.coe_le_coe_iff.mpr h

/-! ## The invariant -/

section Main

variable {B T C : ℕ} {x : ℕ → ℝ} {a : ℕ → Fin B → EReal}

/-- A tile whose places are the row's columns `n * B + j`, padding beyond column `C`, is the padded
    row read at those columns. -/
theorem tile_eq_pad
    (ha : ∀ n, n < T → ∀ j : Fin B,
      a n j = if n * B + j.val < C then ((x (n * B + j.val) : ℝ) : EReal) else ⊥)
    {n : ℕ} (hn : n < T) : a n = fun j : Fin B => pad x C (n * B + j.val) :=
  funext fun j => ha n hn j

/-- After `n` tiles the running maximum is the maximum (from `⊥`) of the padded row over the first
    `n * B` columns. -/
theorem runMax_eq_fold
    (ha : ∀ n, n < T → ∀ j : Fin B,
      a n j = if n * B + j.val < C then ((x (n * B + j.val) : ℝ) : EReal) else ⊥) :
    ∀ n : ℕ, n ≤ T → runMax a n = (Finset.range (n * B)).fold max ⊥ (pad x C)
  | 0, _ => by rw [Nat.zero_mul, Finset.range_zero, Finset.fold_empty, runMax_zero]
  | n + 1, h => by
    rw [runMax_succ, runMax_eq_fold ha n (Nat.le_of_succ_le h), Nat.add_mul, Nat.one_mul,
      fold_max_range_add, tile_eq_pad ha (Nat.lt_of_succ_le h)]

/-- From the first tile on the running maximum is a real number: the maximum of the row over the
    columns gone through. -/
theorem runMax_eq_coe (hB : 0 < B) (hC : 0 < C)
    (ha : ∀ n, n < T → ∀ j : Fin B,
      a n j = if n * B + j.val < C then ((x (n * B + j.val) : ℝ) : EReal) else ⊥)
    {n : ℕ} (h1 : 0 < n) (hn : n ≤ T) :
    runMax a n = ((rowMax x (min C (n * B)) : ℝ) : EReal) := by
  rw [runMax_eq_fold ha n hn, fold_pad_eq x hC (Nat.mul_pos h1 hB)]

/-- After `n` tiles the running sum is the real sum, over the first `n * B` columns of the padded row,
    of the exponentials relative to the maximum of the columns gone through. -/
theorem runSum_eq_coe (hB : 0 < B) (hC : 0 < C)
    (ha : ∀ n, n < T → ∀ j : Fin B,
      a n j = if n * B + j.val < C then ((x (n * B + j.val) : ℝ) : EReal) else ⊥) :
    ∀ n : ℕ, n ≤ T → runSum a n
      = ((∑ k ∈ Finset.range (n * B), term x C (rowMax x (min C (n * B))) k : ℝ) : EReal)
  | 0, _ => by rw [Nat.zero_mul, Finset.range_zero, Finset.sum_empty, EReal.coe_zero, runSum_zero]
  | n + 1, h => by
    have hn : n ≤ T := Nat.le_of_succ_le h
    have hlt : n < T := Nat.lt_of_succ_le h
    obtain ⟨μ', hμ'⟩ : ∃ μ' : ℝ, μ' = rowMax x (min C ((n + 1) * B)) := ⟨_, rfl⟩
    have hm' : runMax a (n + 1) = (μ' : EReal) := by
      rw [hμ']; exact runMax_eq_coe hB hC ha (Nat.succ_pos n) h
    rw [← hμ', runSum_succ, hm', runSum_eq_coe hB hC ha n hn]
    -- the old sum, rescaled from the old maximum to the new one
    have hA : Ideal.exp (runMax a n - (μ' : EReal))
          * ((∑ k ∈ Finset.range (n * B), term x C (rowMax x (min C (n * B))) k : ℝ) : EReal)
        = ((∑ k ∈ Finset.range (n * B), term x C μ' k : ℝ) : EReal) := by
      rcases Nat.eq_zero_or_pos n with h0 | hpos
      · subst h0
        rw [Nat.zero_mul, Finset.range_zero, Finset.sum_empty, Finset.sum_empty, EReal.coe_zero,
          mul_zero]
      · rw [runMax_eq_coe hB hC ha hpos hn, ← EReal.coe_sub, Ideal.exp_coe, ← EReal.coe_mul,
          Finset.mul_sum]
        congr 1
        refine Finset.sum_congr rfl fun k _ => ?_
        unfold term
        split_ifs
        · rw [← Real.exp_add]
          congr 1
          ring
        · rw [mul_zero]
    -- the new tile's terms
    have hBsum : ∑ j : Fin B, Ideal.exp (a n j - (μ' : EReal))
        = ((∑ j ∈ Finset.range B, term x C μ' (n * B + j) : ℝ) : EReal) := by
      rw [Finset.sum_range (fun j => term x C μ' (n * B + j)), coe_sum]
      refine Finset.sum_congr rfl fun j _ => ?_
      rw [ha n hlt j]
      exact exp_pad_sub x C μ' (n * B + j.val)
    rw [hA, hBsum, ← EReal.coe_add, Nat.add_mul, Nat.one_mul, Finset.sum_range_add]

/-! ## After the last tile -/

/-- There is at least one tile. -/
theorem tiles_pos (hC : 0 < C) (hCT : C ≤ T * B) : 0 < T := by
  rcases Nat.eq_zero_or_pos T with h | h
  · subst h
    rw [Nat.zero_mul] at hCT
    omega
  · exact h

/-- (1, the tiles' side) After the last tile the running maximum is the real maximum of the row. -/
theorem runMax_final (hB : 0 < B) (hC : 0 < C) (hCT : C ≤ T * B)
    (ha : ∀ n, n < T → ∀ j : Fin B,
      a n j = if n * B + j.val < C then ((x (n * B + j.val) : ℝ) : EReal) else ⊥) :
    runMax a T = ((rowMax x C : ℝ) : EReal) := by
  rw [runMax_eq_coe hB hC ha (tiles_pos hC hCT) le_rfl, min_eq_left hCT]

/-- (2, the tiles' side) After the last tile the running sum is the real two-pass sum of exponentials
    relative to the row's maximum: the padding's terms are `0`. -/
theorem runSum_final (hB : 0 < B) (hC : 0 < C) (hCT : C ≤ T * B)
    (ha : ∀ n, n < T → ∀ j : Fin B,
      a n j = if n * B + j.val < C then ((x (n * B + j.val) : ℝ) : EReal) else ⊥) :
    runSum a T = ((rowSumExp x C : ℝ) : EReal) := by
  rw [runSum_eq_coe hB hC ha T le_rfl, min_eq_left hCT]
  congr 1
  unfold rowSumExp
  rw [← Finset.sum_subset (Finset.range_subset_range.mpr hCT) (fun k _ hk => by
    unfold term
    rw [if_neg (fun hlt => hk (Finset.mem_range.mpr hlt))])]
  refine Finset.sum_congr rfl fun k hk => ?_
  unfold term
  rw [if_pos (Finset.mem_range.mp hk)]

end Main

/-! ## The two-pass side -/

section Reference

variable {C : ℕ} {x : ℕ → ℝ}

/-- (1, the two-pass side) The two-pass maximum, `max ⊥` of the fold of `max` from `⊥` over the `C`
    columns, is the real maximum of the row. -/
theorem refMax_eq (hC : 0 < C) (y : Fin C → EReal) (hy : ∀ k : Fin C, y k = ((x k.val : ℝ) : EReal)) :
    max ⊥ ((Finset.univ : Finset (Fin C)).fold max ⊥ y) = ((rowMax x C : ℝ) : EReal) := by
  rw [max_eq_right bot_le]
  apply le_antisymm
  · rw [Finset.fold_max_le]
    refine ⟨bot_le, fun k _ => ?_⟩
    rw [hy k]
    exact EReal.coe_le_coe_iff.mpr (le_rowMax x k.isLt)
  · obtain ⟨k, hk, h⟩ := exists_rowMax_le x hC
    rw [Finset.le_fold_max]
    refine Or.inr ⟨⟨k, hk⟩, Finset.mem_univ _, ?_⟩
    rw [hy]
    exact EReal.coe_le_coe_iff.mpr h

/-- (2, the two-pass side) The two-pass sum, `0 +` the sum over the `C` columns of the exponentials
    relative to the two-pass maximum, is the real sum `rowSumExp`. -/
theorem refSum_eq (hC : 0 < C) (y : Fin C → EReal) (hy : ∀ k : Fin C, y k = ((x k.val : ℝ) : EReal)) :
    0 + ∑ k : Fin C, Ideal.exp (y k - max ⊥ ((Finset.univ : Finset (Fin C)).fold max ⊥ y))
      = ((rowSumExp x C : ℝ) : EReal) := by
  rw [refMax_eq hC y hy, zero_add]
  unfold rowSumExp
  rw [Finset.sum_range (fun k => Real.exp (x k - rowMax x C)), coe_sum]
  refine Finset.sum_congr rfl fun k _ => ?_
  rw [hy k, ← EReal.coe_sub, Ideal.exp_coe]

/-- The two-pass log-probability of a real logit `xt` is the real number
    `xt - M - log S`. -/
theorem refLogp_eq (hC : 0 < C) (y : Fin C → EReal) (hy : ∀ k : Fin C, y k = ((x k.val : ℝ) : EReal))
    (xt : ℝ) :
    ((xt : EReal) - max ⊥ ((Finset.univ : Finset (Fin C)).fold max ⊥ y))
        - Ideal.log (0 + ∑ k : Fin C,
            Ideal.exp (y k - max ⊥ ((Finset.univ : Finset (Fin C)).fold max ⊥ y)))
      = ((xt - rowMax x C - Real.log (rowSumExp x C) : ℝ) : EReal) := by
  rw [refSum_eq hC y hy, refMax_eq hC y hy, Ideal.log_coe,
    if_neg (not_le.mpr (rowSumExp_pos x hC)), ← EReal.coe_sub, ← EReal.coe_sub]

end Reference

/-! ## The online computation equals the two-pass one -/

section Equal

variable {B T C : ℕ} {x : ℕ → ℝ} {a : ℕ → Fin B → EReal}

/-- (1) After the last tile the running maximum is the two-pass maximum. -/
theorem runMax_eq_ref (hB : 0 < B) (hC : 0 < C) (hCT : C ≤ T * B)
    (ha : ∀ n, n < T → ∀ j : Fin B,
      a n j = if n * B + j.val < C then ((x (n * B + j.val) : ℝ) : EReal) else ⊥)
    (y : Fin C → EReal) (hy : ∀ k : Fin C, y k = ((x k.val : ℝ) : EReal)) :
    runMax a T = max ⊥ ((Finset.univ : Finset (Fin C)).fold max ⊥ y) := by
  rw [runMax_final hB hC hCT ha, refMax_eq hC y hy]

/-- (2) After the last tile the running sum is the two-pass sum. -/
theorem runSum_eq_ref (hB : 0 < B) (hC : 0 < C) (hCT : C ≤ T * B)
    (ha : ∀ n, n < T → ∀ j : Fin B,
      a n j = if n * B + j.val < C then ((x (n * B + j.val) : ℝ) : EReal) else ⊥)
    (y : Fin C → EReal) (hy : ∀ k : Fin C, y k = ((x k.val : ℝ) : EReal)) :
    runSum a T
      = 0 + ∑ k : Fin C, Ideal.exp (y k - max ⊥ ((Finset.univ : Finset (Fin C)).fold max ⊥ y)) := by
  rw [runSum_final hB hC hCT ha, refSum_eq hC y hy]

/-- The online log-sum-exp less a real logit `xt` is the real number `M + log S - xt`. -/
theorem lse_sub_eq_coe (hB : 0 < B) (hC : 0 < C) (hCT : C ≤ T * B)
    (ha : ∀ n, n < T → ∀ j : Fin B,
      a n j = if n * B + j.val < C then ((x (n * B + j.val) : ℝ) : EReal) else ⊥)
    (xt : ℝ) :
    (runMax a T + Ideal.log (runSum a T)) - (xt : EReal)
      = ((rowMax x C + Real.log (rowSumExp x C) - xt : ℝ) : EReal) := by
  rw [runMax_final hB hC hCT ha, runSum_final hB hC hCT ha, Ideal.log_coe,
    if_neg (not_le.mpr (rowSumExp_pos x hC)), ← EReal.coe_add, ← EReal.coe_sub]

/-- (3) The online log-sum-exp less a real logit `xt` is the negated two-pass log-probability of
    `xt`: `(m T + log (s T)) - xt = -((xt - M) - log S)`. -/
theorem lse_sub_eq_neg_logp (hB : 0 < B) (hC : 0 < C) (hCT : C ≤ T * B)
    (ha : ∀ n, n < T → ∀ j : Fin B,
      a n j = if n * B + j.val < C then ((x (n * B + j.val) : ℝ) : EReal) else ⊥)
    (y : Fin C → EReal) (hy : ∀ k : Fin C, y k = ((x k.val : ℝ) : EReal)) (xt : ℝ) :
    (runMax a T + Ideal.log (runSum a T)) - (xt : EReal)
      = -(((xt : EReal) - max ⊥ ((Finset.univ : Finset (Fin C)).fold max ⊥ y))
          - Ideal.log (0 + ∑ k : Fin C,
              Ideal.exp (y k - max ⊥ ((Finset.univ : Finset (Fin C)).fold max ⊥ y)))) := by
  rw [lse_sub_eq_coe hB hC hCT ha, refLogp_eq hC y hy, ← EReal.coe_neg]
  congr 1
  ring

end Equal

/-! ## The reductions' own forms

  A maximum reduction arrives as a fold of the instance's `maximumf` from the value of the pattern
  `0xFF800000` (`-∞` in single precision); both are what the statements above use. -/

section Forms

/-- The single-precision pattern of `-∞` denotes `⊥`. -/
theorem ofBits_negInf_f32 : Ideal.ofBits .f32 0xFF800000#32 = (⊥ : EReal) := by
  simp [Ideal.ofBits, Ideal.ieee]

/-- A fold of the instance's `maximumf` on the extended reals is the fold of `max`. -/
theorem fold_maximumf_eq_fold_max {φ : FTy} {n : ℕ} (b : EReal) (y : Fin n → EReal) :
    (Finset.univ : Finset (Fin n)).fold (FloatOps.maximumf (F := Ideal) (φ := φ)) b y
      = (Finset.univ : Finset (Fin n)).fold max b y := rfl

end Forms

end OnlineLse

end
-- ==== Proof.StepApply.lean ====
/-
  One grid step of the cross-entropy kernel on the extended reals, read row by row.

  A step holds a `[256, 1024]` tile `a` of scaled logits and a one-bit mask `c` of the same shape, and three
  columns of 256 rows: the running maximum `m`, the running sum `l` of exponentials relative to `m`, and the
  logit `s` picked so far.  At row `b` the values a step stores are

      m' b = max (m b) (the fold of max from ⊥ over the lanes a b j),
      l' b = exp (m b - m' b) * l b + ∑ j, exp (a b j - m' b),
      s' b = s b + ∑ j, (a b j where c b j is set, else 0).

  The first step of a row of tiles starts from `m = ⊥`, `l = 0`, `s = 0`; the last one lays the three columns
  out as the three rows of a `[1, 3, 256]` block.  The tile and the mask stay opaque: nothing here looks inside
  them.

  Why each reading holds.  A reduction over the lanes, kept as a column, is at row `b` the fold (for the maximum,
  from the value of the pattern of `-∞`, which is `⊥`) or the finite sum over the entries `(b, j)` of the row; a
  column spread over the lanes reads its own row everywhere; a cast of a shape to itself changes nothing; a
  select against the zero splat is the `if` with `0` in the other branch; and a stack of three one-row matrices
  reads, in row `k`, the `k`-th of them.
-/
import proofs.«408512_j5033701671602_2_alg».proof.Proof.Gen.KernelIdeal.Skeleton
import proofs.«408512_j5033701671602_2_alg».proof.Proof.LibOnlineLse
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StepValue

open Cert.KernelIdeal Cert.KernelIdeal.Gen Idealize.ShloMosaic Idealize.ShloMosaic.ValueIdx
open scoped BigOperators

/-- The one index of a unit axis. -/
abbrev z0 : Fin 1 := ⟨0, Nat.one_pos⟩

/-! ## Columns: a vector as a one-column matrix, and a column spread over a row -/

section Layout
variable {α : Type}

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i z0) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p z0) := by
  refine broadcastTo_apply v h (ix2 p c) (ix2 p z0) fun ax => ?_
  match ax with
  | ⟨0, _⟩ =>
    show p.val = if a = 1 then 0 else p.val
    split
    · have := p.isLt; omega
    · rfl
  | ⟨1, _⟩ => rfl

end Layout

/-! ## The constant payloads -/

/-- The initial running maximum is `-∞` in every row. -/
theorem pay5_apply (b : Fin 256) : k0_pay5 (F := Ideal) (ix2 b z0) = (⊥ : EReal) := by
  unfold k0_pay5
  rw [shapeCast_self]
  exact OnlineLse.ofBits_negInf_f32

/-- The initial running sum is `0` in every row. -/
theorem pay6_apply (b : Fin 256) : k0_pay6 (F := Ideal) (ix2 b z0) = (0 : EReal) := by
  unfold k0_pay6
  rw [shapeCast_self]
  exact Ideal.ofBits_zero_f32

/-- The initial picked logit is `0` in every row. -/
theorem pay7_apply (b : Fin 256) : k0_pay7 (F := Ideal) (ix2 b z0) = (0 : EReal) := by
  unfold k0_pay7
  rw [shapeCast_self]
  exact Ideal.ofBits_zero_f32

/-! ## The packed result: three columns laid as the three rows of one block -/

/-- A column read as a one-row matrix: `[256, 1] → [256] → [1, 256]` at `(0, b)` is the column at `(b, 0)`. -/
theorem row_of_col (v : Vec Ideal S256x1 .f32) (b : Fin 256) :
    shapeCast S1x256 (shapeCast S256 v shapeCasts_S256x1_S256) shapeCasts_S256_S1x256 (ix2 z0 b) = v (ix2 b z0) :=
  (shapeCast_a_1a_apply _ shapeCasts_S256_S1x256 z0 b).trans (shapeCast_a1_a_apply v shapeCasts_S256x1_S256 b)

/-- Row `0` of the packed block is the first column. -/
theorem pack_apply_0 (mv lv sv : Vec Ideal S256x1 .f32) (b : Fin 256) :
    k0_pay4 (F := Ideal) mv lv sv (ix3 z0 (⟨0, by decide⟩ : Fin 3) b) = mv (ix2 b z0) := by
  unfold k0_pay4
  refine (shapeCast_ab_1ab_apply _ shapeCasts_S3x256_S1x3x256 z0 (⟨0, by decide⟩ : Fin 3) b).trans ?_
  refine (concatenate_apply_piece (0 : Fin S3x256.rank)
    [⟨S1x256, shapeCast S1x256 (shapeCast S256 mv shapeCasts_S256x1_S256) shapeCasts_S256_S1x256⟩,
      ⟨S1x256, shapeCast S1x256 (shapeCast S256 lv shapeCasts_S256x1_S256) shapeCasts_S256_S1x256⟩,
      ⟨S1x256, shapeCast S1x256 (shapeCast S256 sv shapeCasts_S256x1_S256) shapeCasts_S256_S1x256⟩]
    concatenates_S1x256_S1x256_S1x256_S3x256_d0
    (ix2 (⟨0, by decide⟩ : Fin 3) b) 0 (show 0 < 3 by omega) S1x256 _ rfl rfl 0 rfl (ix2 z0 b)
    (fun c => match c with
      | ⟨0, _⟩ => fun hc => absurd rfl hc
      | ⟨1, _⟩ => fun _ => rfl) rfl).trans ?_
  exact row_of_col mv b

/-- Row `1` of the packed block is the second column. -/
theorem pack_apply_1 (mv lv sv : Vec Ideal S256x1 .f32) (b : Fin 256) :
    k0_pay4 (F := Ideal) mv lv sv (ix3 z0 (⟨1, by decide⟩ : Fin 3) b) = lv (ix2 b z0) := by
  unfold k0_pay4
  refine (shapeCast_ab_1ab_apply _ shapeCasts_S3x256_S1x3x256 z0 (⟨1, by decide⟩ : Fin 3) b).trans ?_
  refine (concatenate_apply_piece (0 : Fin S3x256.rank)
    [⟨S1x256, shapeCast S1x256 (shapeCast S256 mv shapeCasts_S256x1_S256) shapeCasts_S256_S1x256⟩,
      ⟨S1x256, shapeCast S1x256 (shapeCast S256 lv shapeCasts_S256x1_S256) shapeCasts_S256_S1x256⟩,
      ⟨S1x256, shapeCast S1x256 (shapeCast S256 sv shapeCasts_S256x1_S256) shapeCasts_S256_S1x256⟩]
    concatenates_S1x256_S1x256_S1x256_S3x256_d0
    (ix2 (⟨1, by decide⟩ : Fin 3) b) 1 (show 1 < 3 by omega) S1x256 _ rfl rfl 1 rfl (ix2 z0 b)
    (fun c => match c with
      | ⟨0, _⟩ => fun hc => absurd rfl hc
      | ⟨1, _⟩ => fun _ => rfl) rfl).trans ?_
  exact row_of_col lv b

/-- Row `2` of the packed block is the third column. -/
theorem pack_apply_2 (mv lv sv : Vec Ideal S256x1 .f32) (b : Fin 256) :
    k0_pay4 (F := Ideal) mv lv sv (ix3 z0 (⟨2, by decide⟩ : Fin 3) b) = sv (ix2 b z0) := by
  unfold k0_pay4
  refine (shapeCast_ab_1ab_apply _ shapeCasts_S3x256_S1x3x256 z0 (⟨2, by decide⟩ : Fin 3) b).trans ?_
  refine (concatenate_apply_piece (0 : Fin S3x256.rank)
    [⟨S1x256, shapeCast S1x256 (shapeCast S256 mv shapeCasts_S256x1_S256) shapeCasts_S256_S1x256⟩,
      ⟨S1x256, shapeCast S1x256 (shapeCast S256 lv shapeCasts_S256x1_S256) shapeCasts_S256_S1x256⟩,
      ⟨S1x256, shapeCast S1x256 (shapeCast S256 sv shapeCasts_S256x1_S256) shapeCasts_S256_S1x256⟩]
    concatenates_S1x256_S1x256_S1x256_S3x256_d0
    (ix2 (⟨2, by decide⟩ : Fin 3) b) 2 (show 2 < 3 by omega) S1x256 _ rfl rfl 2 rfl (ix2 z0 b)
    (fun c => match c with
      | ⟨0, _⟩ => fun hc => absurd rfl hc
      | ⟨1, _⟩ => fun _ => rfl) rfl).trans ?_
  exact row_of_col sv b

/-! ## One tile's row reductions -/

/-- The index of the tile over row `b` with lane `j` inserted is `(b, j)`. -/
theorem lift_row (b : Fin 256) (j : Fin 1024) :
    reduces_S256x1024_S256.lift (ix1 b) j = ix2 b j := by
  funext a
  apply Fin.ext
  match a with
  | ⟨0, _⟩ => rfl
  | ⟨1, _⟩ => rfl

/-- A tile's maximum over its lanes, kept as a column: at row `b` the fold of `max` from `⊥` over the row. -/
theorem rowMax_apply (src : FVec Ideal S256x1024 .f32) (hφ : FKind.Formats .f32)
    (hacc : (0xFF800000#32 : BitVec 32) = FKind.maximumf.neutral .f32 hφ) (b : Fin 256) :
    shapeCast S256x1 (multiReduction .maximumf [1] S256 src 0xFF800000#32 reduces_S256x1024_S256 hφ hacc)
        shapeCasts_S256_S256x1 (ix2 b z0)
      = (Finset.univ : Finset (Fin 1024)).fold max ⊥ fun j => src (ix2 b j) := by
  refine (shapeCast_a_a1_apply _ shapeCasts_S256_S256x1 b z0).trans ?_
  refine (Ideal.multiReduction_maximumf_single src 0xFF800000#32 reduces_S256x1024_S256 hφ hacc (ix1 b)).trans ?_
  have e : (src ∘ reduces_S256x1024_S256.lift (ix1 b)) = fun j : Fin 1024 => src (ix2 b j) :=
    funext fun j => congrArg src (lift_row b j)
  rw [e]
  exact congrArg (fun z : EReal => (Finset.univ : Finset (Fin 1024)).fold max z fun j => src (ix2 b j))
    OnlineLse.ofBits_negInf_f32

/-- A tile's sum over its lanes, kept as a column: at row `b` the sum over the row. -/
theorem rowSum_apply (src : FVec Ideal S256x1024 .f32) (hφ : FKind.Formats .f32)
    (hacc : (0x00000000#32 : BitVec 32) = FKind.add.neutral .f32 hφ) (b : Fin 256) :
    shapeCast S256x1 (multiReduction .add [1] S256 src 0x00000000#32 reduces_S256x1024_S256 hφ hacc)
        shapeCasts_S256_S256x1 (ix2 b z0)
      = ∑ j : Fin 1024, src (ix2 b j) := by
  refine (shapeCast_a_a1_apply _ shapeCasts_S256_S256x1 b z0).trans ?_
  refine (Ideal.multiReduction_add_single src 0x00000000#32 reduces_S256x1024_S256 hφ hacc (ix1 b)).trans ?_
  exact Finset.sum_congr rfl fun j _ => congrArg src (lift_row b j)

/-! ## The running maximum's step -/

/-- The new running maximum of row `b`: the old one joined with the tile's row maximum. -/
theorem pay10_apply (x0 : Vec Ideal S256x2048 .f32) (x1 : Vec Ideal S1024x2048 .f32) (mo : Vec Ideal S256x1 .f32)
    (b : Fin 256) :
    k0_pay10 (F := Ideal) x0 x1 mo (ix2 b z0)
      = max (mo (ix2 b z0)) ((Finset.univ : Finset (Fin 1024)).fold max ⊥ fun j => k0_pay8 (F := Ideal) x0 x1 (ix2 b j)) := by
  unfold k0_pay10
  exact congrArg (max (mo (ix2 b z0))) (rowMax_apply (k0_pay8 (F := Ideal) x0 x1) (.inl rfl) rfl b)

/-- The stored running maximum of row `b` after a tile. -/
theorem stepM_apply (x0 : Vec Ideal S256x2048 .f32) (x1 : Vec Ideal S1024x2048 .f32) (mo : Vec Ideal S256x1 .f32)
    (b : Fin 256) :
    k0_pay3 (k0_pay10 (F := Ideal) x0 x1 mo) (ix2 b z0)
      = max (mo (ix2 b z0)) ((Finset.univ : Finset (Fin 1024)).fold max ⊥ fun j => k0_pay8 (F := Ideal) x0 x1 (ix2 b j)) := by
  unfold k0_pay3
  rw [shapeCast_self]
  exact pay10_apply x0 x1 mo b

/-! ## The stores' identity casts -/

/-- The stored running sum is the computed one. -/
theorem pay1_eq (v : FVec Ideal S256x1 .f32) : k0_pay1 v = v := by
  unfold k0_pay1
  exact shapeCast_self v _

/-- The stored running maximum is the computed one. -/
theorem pay3_eq (v : FVec Ideal S256x1 .f32) : k0_pay3 v = v := by
  unfold k0_pay3
  exact shapeCast_self v _

/-! ## The running sum's step -/

/-- The new running sum of row `b`: the old one rescaled from the old maximum to the new, plus the tile's
    exponentials relative to the new maximum. -/
theorem stepL_apply (x0 : Vec Ideal S256x2048 .f32) (x1 : Vec Ideal S1024x2048 .f32) (mo lo : Vec Ideal S256x1 .f32)
    (b : Fin 256) :
    k0_pay1 (k0_pay11 (F := Ideal) x0 x1 mo mo lo) (ix2 b z0)
      = Ideal.exp (mo (ix2 b z0) - k0_pay3 (k0_pay10 (F := Ideal) x0 x1 mo) (ix2 b z0)) * lo (ix2 b z0)
        + ∑ j : Fin 1024, Ideal.exp (k0_pay8 (F := Ideal) x0 x1 (ix2 b j)
            - k0_pay3 (k0_pay10 (F := Ideal) x0 x1 mo) (ix2 b z0)) := by
  rw [pay1_eq, pay3_eq]
  unfold k0_pay11
  refine (addf_apply _ _ _).trans ?_
  refine congrArg (Ideal.exp (mo (ix2 b z0) - k0_pay10 (F := Ideal) x0 x1 mo (ix2 b z0)) * lo (ix2 b z0) + ·) ?_
  refine (rowSum_apply _ (.inl rfl) rfl b).trans ?_
  refine Finset.sum_congr rfl fun j _ => ?_
  show Ideal.exp (k0_pay8 (F := Ideal) x0 x1 (ix2 b j)
      - broadcastTo S256x1024 (k0_pay10 (F := Ideal) x0 x1 mo) broadcasts_S256x1_S256x1024 (ix2 b j)) = _
  rw [broadcastTo_a1_ab_apply]

/-! ## The picked logit's step -/

/-- The new picked logit of row `b`: the old one plus the tile's logits at the lanes the mask marks. -/
theorem stepS_apply (i : grid0.Coords) (x0 : Vec Ideal S256x2048 .f32) (x1 : Vec Ideal S1024x2048 .f32)
    (x2 : Vec Ideal S256x1 .i32) (so : Vec Ideal S256x1 .f32) (b : Fin 256) :
    k0_pay2 (k0_pay8 (F := Ideal) x0 x1) (k0_pay9 (F := Ideal) i x2) so (ix2 b z0)
      = so (ix2 b z0) + ∑ j : Fin 1024,
          if k0_pay9 (F := Ideal) i x2 (ix2 b j) = 1#1 then k0_pay8 (F := Ideal) x0 x1 (ix2 b j) else 0 := by
  unfold k0_pay2
  rw [shapeCast_self]
  refine (addf_apply _ _ _).trans ?_
  refine congrArg (so (ix2 b z0) + ·) ?_
  refine (rowSum_apply _ (.inl rfl) rfl b).trans ?_
  refine Finset.sum_congr rfl fun j _ => ?_
  exact if_congr Iff.rfl rfl Ideal.ofBits_zero_f32

end Cert.KernelIdeal.StepValue

end
-- ==== Proof.Targets.lean ====
/-
  The target class of a label word as a number.

  `clipW w` is `minsi 16383 (maxsi 0 s)` for the shifted label `s`: whatever `s` is, the inner maximum is
  `0` when `s` is negative (signed) and `s` otherwise, so it is non-negative; the outer minimum is `16383` when
  that exceeds `16383` and the value itself otherwise.  Hence the class lies in `[0, 16383]` in the signed order, its
  signed and unsigned readings agree, and its compares against `0` and `16383` are decided.
-/
import proofs.«408512_j5033701671602_2_alg».proof.Proof.Vocab

namespace CeVocab

open Idealize.ShloMosaic

/-- The signed clamp of any word into `[0, 16383]` lies there. -/
theorem clamp_toInt_bounds (s : BitVec 32) :
    0 ≤ (IntOp.minsi 16383#32 (IntOp.maxsi 0#32 s)).toInt ∧
      (IntOp.minsi 16383#32 (IntOp.maxsi 0#32 s)).toInt ≤ 16383 := by
  have h0 : (0#32 : BitVec 32).toInt = 0 := by decide
  have hM : (16383#32 : BitVec 32).toInt = 16383 := by decide
  unfold IntOp.minsi IntOp.maxsi
  by_cases h1 : s.slt 0#32 = true
  · rw [if_pos h1]
    have h2 : ¬ ((16383#32 : BitVec 32).slt 0#32 = true) := by decide
    rw [if_neg h2, h0]; omega
  · rw [if_neg h1]
    have h1' : ¬ s.toInt < 0 := by
      intro hlt; apply h1; simp only [BitVec.slt, h0, decide_eq_true_eq]; exact hlt
    by_cases h2 : (16383#32 : BitVec 32).slt s = true
    · rw [if_pos h2, hM]; omega
    · rw [if_neg h2]
      have h2' : ¬ (16383 : ℤ) < s.toInt := by
        intro hlt; apply h2; simp only [BitVec.slt, hM, decide_eq_true_eq]; exact hlt
      omega

theorem clipW_toInt_nonneg (w : BitVec 32) : 0 ≤ (clipW w).toInt :=
  (clamp_toInt_bounds (shiftW w)).1

theorem clipW_toInt_le (w : BitVec 32) : (clipW w).toInt ≤ 16383 :=
  (clamp_toInt_bounds (shiftW w)).2

/-- A word whose signed reading is non-negative reads the same unsigned. -/
theorem toInt_eq_toNat_of_nonneg (a : BitVec 32) (ha : 0 ≤ a.toInt) : a.toInt = (a.toNat : ℤ) := by
  have hlt : a.toNat < 2 ^ 32 := a.isLt
  rw [BitVec.toInt_eq_toNat_cond] at ha ⊢
  split_ifs at ha ⊢ with h
  · rfl
  · exfalso; omega

theorem clipW_toInt (w : BitVec 32) : (clipW w).toInt = (tgtOf w : ℤ) :=
  toInt_eq_toNat_of_nonneg (clipW w) (clipW_toInt_nonneg w)

theorem tgtOf_lt (w : BitVec 32) : tgtOf w < 16384 := by
  have h := clipW_toInt_le w
  rw [clipW_toInt] at h
  omega

theorem clipW_slt_zero (w : BitVec 32) : IntOp.cmpi .slt (clipW w) 0#32 = 0#1 := by
  have h0 : (0#32 : BitVec 32).toInt = 0 := by decide
  have h := clipW_toInt_nonneg w
  have hb : (clipW w).slt 0#32 = false := by
    simp only [BitVec.slt, h0, decide_eq_false_iff_not]; omega
  simp only [IntOp.cmpi, hb]; rfl

theorem clipW_sge_zero (w : BitVec 32) : IntOp.cmpi .sge (clipW w) 0#32 = 1#1 := by
  have h0 : (0#32 : BitVec 32).toInt = 0 := by decide
  have h := clipW_toInt_nonneg w
  have hb : (0#32 : BitVec 32).sle (clipW w) = true := by
    simp only [BitVec.sle, h0, decide_eq_true_eq]; exact h
  simp only [IntOp.cmpi, hb]; rfl

theorem clipW_sle_max (w : BitVec 32) : IntOp.cmpi .sle (clipW w) 16383#32 = 1#1 := by
  have hM : (16383#32 : BitVec 32).toInt = 16383 := by decide
  have h := clipW_toInt_le w
  have hb : (clipW w).sle 16383#32 = true := by
    simp only [BitVec.sle, hM, decide_eq_true_eq]; exact h
  simp only [IntOp.cmpi, hb]; rfl

theorem cmpi_eq_one_iff (a b : BitVec 32) : IntOp.cmpi .eq a b = 1#1 ↔ a.toNat = b.toNat := by
  rw [BitVec.toNat_inj]
  by_cases h : a = b
  · subst h; simp [IntOp.cmpi]
  · have hb : (a == b) = false := by simpa using h
    simp only [IntOp.cmpi, hb, h, iff_false]; decide

end CeVocab
-- ==== Proof.Mask.lean ====
/-
  The kernel's target mask read at an index.

  The mask of grid point `(g0, g1)` compares, element by element, the global column number
  `j + ((g0 * 8 + g1) * 1024)` (a column iota along axis 1 plus the tile's first column) with the row's target word,
  the `[256, 1]` target column broadcast along the row.  With `g0 < 2` and `g1 < 8` the column number is below
  `2 ^ 32`, so no word wraps and the compare of words is the compare of the numbers.
-/
import proofs.«408512_j5033701671602_2_alg».proof.Proof.Gen.KernelIdeal.Skeleton
import proofs.«408512_j5033701671602_2_alg».proof.Proof.Targets
import Idealize.ShloMosaic.Lib.ValueIdx
import Idealize.ShloMosaic.Lib.Pipeline.Value

namespace Cert.KernelIdeal.MaskValue

open Cert.KernelIdeal Cert.KernelIdeal.Gen Idealize.ShloMosaic Idealize.ShloMosaic.ValueIdx

variable {F : FTy → Type} [FloatOps F] [Named F]

/-- The global column number of column `j` of tile `(g0, g1)` as a word: nothing wraps. -/
theorem colWord_toNat (g0 g1 j : ℕ) (h0 : g0 < 2) (h1 : g1 < 8) (hj : j < 1024) :
    (IntOp.addi (BitVec.ofNat 32 j)
        (Scalar.muli (Scalar.addi (Scalar.muli (BitVec.ofNat 32 g0) 8#32) (BitVec.ofNat 32 g1)) 1024#32)).toNat
      = (8 * g0 + g1) * 1024 + j := by
  simp only [IntOp.addi, IntOp.muli, Scalar.muli, Scalar.addi, BitVec.toNat_add, BitVec.toNat_mul, BitVec.toNat_ofNat,
    Nat.reducePow, Nat.reduceMod]
  omega

theorem mask_apply (i : grid0.Coords) (v16 : Vec F S256x1 .i32) (b : Fin 256) (j : Fin 1024) :
    k0_pay9 (F := F) i v16 (ix2 b j) = 1#1 ↔
      (8 * (i 0).val + (i 1).val) * 1024 + j.val = (v16 (ix2 b ⟨0, Nat.one_pos⟩)).toNat := by
  have h0 : (i 0).val < 2 := (i 0).isLt
  have h1 : (i 1).val < 8 := (i 1).isLt
  have hbc : broadcastTo S256x1024 (shapeCast S256x1 v16 shapeCasts_S256x1_S256x1) broadcasts_S256x1_S256x1024 (ix2 b j)
      = v16 (ix2 b ⟨0, Nat.one_pos⟩) := by
    rw [shapeCast_self]
    refine broadcastTo_apply v16 broadcasts_S256x1_S256x1024 (ix2 b j) (ix2 b ⟨0, Nat.one_pos⟩) ?_
    intro a
    match a with
    | ⟨0, _⟩ => rfl
    | ⟨1, _⟩ => rfl
  have hio : iota .tc S256x1024 32 [1] iota_S256x1024_d1_w32 (ix2 b j) = BitVec.ofNat 32 j.val := by
    rw [iota_single_apply]
  show IntOp.cmpi .eq
      (IntOp.addi (iota .tc S256x1024 32 [1] iota_S256x1024_d1_w32 (ix2 b j))
        (Scalar.muli (Scalar.addi (Scalar.muli (BitVec.ofNat 32 (i 0).val) 8#32) (BitVec.ofNat 32 (i 1).val)) 1024#32))
      (broadcastTo S256x1024 (shapeCast S256x1 v16 shapeCasts_S256x1_S256x1) broadcasts_S256x1_S256x1024 (ix2 b j)) = 1#1 ↔ _
  rw [hbc, hio, CeVocab.cmpi_eq_one_iff, colWord_toNat _ _ _ h0 h1 j.isLt]

end Cert.KernelIdeal.MaskValue
-- ==== Proof.LogitsK.lean ====
/-
  The kernel's tile of logits read at an index, at the ideal values (a float is an extended real, every
  operation exact, a change of format the identity).

  The kernel works on one tile of 1024 bank rows at a time: it narrows both operands (the identity
  here), multiplies the activations `[256, 2048]` with the tile `[1024, 2048]`, contracting the second
  axis of BOTH, into a zero accumulator, and multiplies by the constant named `"inv_temp"`, whose value
  at the ideal instance is the rational `268435456 / 13421773` of the certificate's table.  At row `b`
  and tile column `j` this is `(∑ k, X b k · Wt j k) · invTemp` (`tile_apply`).

  The sum over the one contracted axis is re-indexed from the contraction shape's index to its one
  coordinate in `Fin 2048`, the operand indices named coordinate by coordinate (four small lemmas, one
  per operand axis), and the inclusion of the reals carried through the finite sum term by term.
-/
import proofs.«408512_j5033701671602_2_alg».proof.Proof.Gen.KernelIdeal.Skeleton
import proofs.«408512_j5033701671602_2_alg».proof.Proof.Vocab
import proofs.«408512_j5033701671602_2_alg».proof.Proof.LibOnlineLse
import Idealize.ShloMosaic.PureOps.IdealRules
import Idealize.ShloMosaic.Lib.ValueIdx
import Idealize.ShloMosaic.Lib.Pipeline.Value
import Idealize.ShloMosaic.PureOps.Ideal.Laws

noncomputable section

open scoped BigOperators

/-! ## The kernel's tile of logits -/

namespace Cert.KernelIdeal.LogitValue

open Cert.KernelIdeal Cert.KernelIdeal.Gen Idealize.ShloMosaic Idealize.ShloMosaic.ValueIdx CeVocab

/-- The kernel's named scale denotes the rational `268435456 / 13421773` at the ideal instance, by the
    certificate's table. -/
theorem inv_temp_val :
    Named.named (F := Ideal) Cert.KernelIdeal.κ "inv_temp" (φ := .f32) 0x41A00000#32
      = ((268435456 / 13421773 : ℝ) : EReal) :=
  IdealRules.named_const.ideal_named_scalar _ _ _ _ rfl

/-- The left operand's first axis is not contracted: it reads the result's first coordinate. -/
theorem lhs_dot_0 (i : S256x1024.Idx) (q : dot_S256x2048_S1024x2048_S256x1024_1_1_0_0_n_n.contr.Idx) :
    (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
/-- The left operand's second axis is the contracted one: it reads the contraction's coordinate. -/
theorem lhs_dot_1 (i : S256x1024.Idx) (q : dot_S256x2048_S1024x2048_S256x1024_1_1_0_0_n_n.contr.Idx) :
    (dot_S256x2048_S1024x2048_S256x1024_1_1_0_0_n_n.lhsIdx i q 1).val = (q ⟨0, by decide⟩).val :=
  dot_S256x2048_S1024x2048_S256x1024_1_1_0_0_n_n.lhsIdx_val_of_single rfl i q
/-- The right operand's first axis is not contracted: it reads the result's second coordinate. -/
theorem rhs_dot_0 (i : S256x1024.Idx) (q : dot_S256x2048_S1024x2048_S256x1024_1_1_0_0_n_n.contr.Idx) :
    (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
/-- The right operand's second axis is the contracted one too: it reads the contraction's coordinate. -/
theorem rhs_dot_1 (i : S256x1024.Idx) (q : dot_S256x2048_S1024x2048_S256x1024_1_1_0_0_n_n.contr.Idx) :
    (dot_S256x2048_S1024x2048_S256x1024_1_1_0_0_n_n.rhsIdx i q 1).val = (q ⟨0, by decide⟩).val :=
  dot_S256x2048_S1024x2048_S256x1024_1_1_0_0_n_n.rhsIdx_val_of_single rfl i q

/-- The tile's matrix product into the zero accumulator, at row `b` and column `j`: the sum over `k` of
    the left operand at `(b, k)` times the right operand at `(j, k)`. -/
theorem matmul_at (l : FVec Ideal S256x2048 .bf16) (r : FVec Ideal S1024x2048 .bf16) (b : Fin 256) (j : Fin 1024) :
    matmul dot_S256x2048_S1024x2048_S256x1024_1_1_0_0_n_n none l r (constant (F := Ideal) S256x1024 .f32 0x00000000#32) (ix2 b j)
      = ∑ k : Fin 2048, l (ix2 b k) * r (ix2 j k) := by
  simp only [matmul]
  rw [Ideal.matmul_constant_zero_apply, ← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 b j) ((contrEquiv1 dot_S256x2048_S1024x2048_S256x1024_1_1_0_0_n_n 2048 rfl rfl).symm k) = ix2 b k := funext fun a => Fin.ext (by
    match a with
    | ⟨0, _⟩ => exact lhs_dot_0 _ _
    | ⟨1, _⟩ => exact (lhs_dot_1 _ _).trans hk)
  have er : dot_S256x2048_S1024x2048_S256x1024_1_1_0_0_n_n.rhsIdx (ix2 b j) ((contrEquiv1 dot_S256x2048_S1024x2048_S256x1024_1_1_0_0_n_n 2048 rfl rfl).symm k) = ix2 j k := funext fun a => Fin.ext (by
    match a with
    | ⟨0, _⟩ => exact rhs_dot_0 _ _
    | ⟨1, _⟩ => exact (rhs_dot_1 _ _).trans hk)
  rw [el, er]

/-- THE KERNEL'S TILE AT AN INDEX: for real activations `X` and a real tile `Wt` of bank rows, the tile of
    logits at row `b` and tile column `j` is `(∑ k, X b k · Wt j k) · invTemp`. -/
theorem tile_apply (X : Fin 256 → Fin 2048 → ℝ) (Wt : Fin 1024 → Fin 2048 → ℝ)
    (x0 : Vec Ideal S256x2048 .f32) (x1 : Vec Ideal S1024x2048 .f32)
    (hx0 : ∀ (b : Fin 256) (k : Fin 2048), x0 (ix2 b k) = ((X b k : ℝ) : EReal))
    (hx1 : ∀ (r : Fin 1024) (k : Fin 2048), x1 (ix2 r k) = ((Wt r k : ℝ) : EReal)) (b : Fin 256) (j : Fin 1024) :
    k0_pay8 (F := Ideal) x0 x1 (ix2 b j) = (((∑ k : Fin 2048, X b k * Wt j k) * invTemp : ℝ) : EReal) := by
  unfold k0_pay8
  rw [mulf_apply, broadcast_apply, matmul_at, inv_temp_val]
  simp only [truncf_apply, hx0, hx1]
  unfold invTemp
  rw [EReal.coe_mul, OnlineLse.coe_sum]
  simp only [EReal.coe_mul]

end Cert.KernelIdeal.LogitValue

end
-- ==== Proof.Blocks.lean ====
/-
  What the kernel's input windows hold at a grid point, read off the arrays as the region finds them.

  The batch of inputs and the column of target classes are one block each, the same at every point;
  the feature bank is cut into 16 blocks of 1024 rows, and point `t` works on rows
  `1024 t, …, 1024 t + 1023`.
-/
import proofs.«408512_j5033701671602_2_alg».proof.Proof.Gen.KernelIdeal.Frame
import Idealize.ShloMosaic.Lib.Pipeline.Value
import Idealize.ShloMosaic.Lib.ValueIdx

noncomputable section

namespace Cert.KernelIdeal.BlockValue

open Cert.KernelIdeal Cert.KernelIdeal.Gen
open Idealize.ShloMosaic Idealize.ShloMosaic.TcCoe Idealize.SL.Sem Idealize.ShloMosaic.ValueIdx

variable {F : FTy → Type} [FloatOps F] [Named F]
variable (m : (ℓ : Loc nD τ sig) → Buf (Elt F) ℓ)

/-- The block indices of the three input windows, decided once over the sixteen points. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The inputs' block at any point is the whole input array. -/
theorem xblk_apply (c : Dev nD) (t : Fin cfg0.N) (b : Fin 256) (k : Fin 2048) :
    (iblk m c 0 t : Vec F S256x2048 .f32) (ix2 b k) = (V m c main_arg0 : Vec F S256x2048 .f32) (ix2 b k) := by
  obtain ⟨h00, h01, -, -, -, -⟩ := idx_facts t
  unfold iblk
  rw [View.read_apply]
  show V m c main_arg0 _ = V m c main_arg0 _
  congr 1
  funext a
  apply Fin.ext
  match a with
  | ⟨0, _⟩ => show win0_0.index t 0 * 256 + 1 * b.val = b.val; rw [h00]; omega
  | ⟨1, _⟩ => show win0_0.index t 1 * 2048 + 1 * k.val = k.val; rw [h01]; omega

/-- The bank's block at point `t` is rows `1024 t + r` of the bank. -/
theorem wblk_apply (c : Dev nD) (t : Fin cfg0.N) (r : Fin 1024) (k : Fin 2048) (hr : 1024 * t.val + r.val < 16384) :
    (iblk m c 1 t : Vec F S1024x2048 .f32) (ix2 r k)
      = (V m c main_arg2 : Vec F S16384x2048 .f32) (ix2 ⟨1024 * t.val + r.val, hr⟩ k) := by
  obtain ⟨-, -, h10, h11, -, -⟩ := idx_facts t
  unfold iblk
  rw [View.read_apply]
  show V m c main_arg2 _ = V m c main_arg2 _
  congr 1
  funext a
  apply Fin.ext
  match a with
  | ⟨0, _⟩ => show win0_1.index t 0 * 1024 + 1 * r.val = 1024 * t.val + r.val; rw [h10]; omega
  | ⟨1, _⟩ => show win0_1.index t 1 * 2048 + 1 * k.val = k.val; rw [h11]; omega

/-- The targets' block at any point is the whole target column. -/
theorem tblk_apply (c : Dev nD) (t : Fin cfg0.N) (b : Fin 256) (z : Fin 1) :
    (iblk m c 2 t : Vec F S256x1 .i32) (ix2 b z) = (V m c main_v11 : Vec F S256x1 .i32) (ix2 b z) := by
  obtain ⟨-, -, -, -, h20, h21⟩ := idx_facts t
  unfold iblk
  rw [View.read_apply]
  show V m c main_v11 _ = V m c main_v11 _
  congr 1
  funext a
  apply Fin.ext
  match a with
  | ⟨0, _⟩ => show win0_2.index t 0 * 256 + 1 * b.val = b.val; rw [h20]; omega
  | ⟨1, _⟩ => show win0_2.index t 1 * 1 + 1 * z.val = z.val; rw [h21]; omega

end Cert.KernelIdeal.BlockValue

end
-- ==== Proof.Spec.lean ====
/-
  The cross-entropy of one row, computed in two halves, against the two-pass log-softmax.

  A row of 16384 real logits `x 0, …, x 16383` and a target column `tgt` are given.  The row is cut
  into two halves of 8192 columns and each half into 8 tiles of 1024 columns.  Going through the tiles
  of one half, one keeps a running maximum `m`, a running sum `l` of exponentials relative to `m`
  (`OnlineLse.runMax`, `OnlineLse.runSum`) and a running sum `s` of the entries standing at the target
  column (`runTgt`: every tile adds the sum of its entries selected by a mask that is set exactly at
  the target column).  The two halves `(m₀, l₀, s₀)`, `(m₁, l₁, s₁)` are merged:

      M = max m₀ m₁,   l = l₀ · exp (m₀ - M) + l₁ · exp (m₁ - M),   s = s₀ + s₁,

  and the loss of the row is `(M + log l) - s`.  This file proves that it is the negated two-pass
  log-probability of the target, `-((x tgt - Mref) - log Sref)` with `Mref` the row's maximum and
  `Sref = ∑ k, exp (x k - Mref)`.

  Why: per half the online quantities are the real numbers `rowMax` and `rowSumExp` of that half
  (LibOnlineLse); the larger of the two half maxima is the row's maximum, and
  `exp (x k - mₕ) · exp (mₕ - M) = exp (x k - M)` carries each half's sum over to the common maximum,
  so `l` is the whole row's sum; the masked sums pick the one entry `x tgt`, which lies in exactly one
  tile of one half.
-/
import proofs.«408512_j5033701671602_2_alg».proof.Proof.LibOnlineLse

noncomputable section

namespace CeSpec

open Idealize.ShloMosaic OnlineLse
open scoped BigOperators

/-- The running sum of the entries a mask selects: `0` before the first tile; each tile adds the sum over
    its places of the entry where the mask is set and of `0` elsewhere. -/
def runTgt {B : ℕ} (a : ℕ → Fin B → EReal) (p : ℕ → Fin B → Bool) : ℕ → EReal
  | 0 => 0
  | n + 1 => runTgt a p n + ∑ j : Fin B, if p n j = true then a n j else 0

@[simp] theorem runTgt_zero {B : ℕ} (a : ℕ → Fin B → EReal) (p : ℕ → Fin B → Bool) : runTgt a p 0 = 0 := rfl

theorem runTgt_succ {B : ℕ} (a : ℕ → Fin B → EReal) (p : ℕ → Fin B → Bool) (n : ℕ) :
    runTgt a p (n + 1) = runTgt a p n + ∑ j : Fin B, if p n j = true then a n j else 0 := rfl

/-! ## One half: its running maximum and running sum

  A half starts at column `o` (`0` or `8192`); read from there, it is the row `k ↦ x (o + k)` of 8192
  columns, cut into 8 full tiles of 1024, so no place is padding. -/

/-- The tiles of a half, which hold the columns `o + (1024 n + j)`, are the tiles of the shifted row
    `k ↦ x (o + k)`; every place `1024 n + j` with `n < 8` lies below 8192. -/
theorem half_tiles (x : ℕ → ℝ) (o : ℕ) (a : ℕ → Fin 1024 → EReal)
    (ha : ∀ n, n < 8 → ∀ j : Fin 1024, a n j = ((x (o + (n * 1024 + j.val)) : ℝ) : EReal)) :
    ∀ n, n < 8 → ∀ j : Fin 1024,
      a n j = if n * 1024 + j.val < 8192
        then (((fun k => x (o + k)) (n * 1024 + j.val) : ℝ) : EReal) else ⊥ :=
  fun n hn j => by
    rw [if_pos (by have := j.isLt; omega)]
    exact ha n hn j

/-- After its 8 tiles a half's running maximum is the real maximum of the half. -/
theorem half_max (x : ℕ → ℝ) (o : ℕ) (a : ℕ → Fin 1024 → EReal)
    (ha : ∀ n, n < 8 → ∀ j : Fin 1024, a n j = ((x (o + (n * 1024 + j.val)) : ℝ) : EReal)) :
    runMax a 8 = ((rowMax (fun k => x (o + k)) 8192 : ℝ) : EReal) :=
  runMax_final (B := 1024) (T := 8) (C := 8192) (by norm_num) (by norm_num) (by norm_num)
    (half_tiles x o a ha)

/-- After its 8 tiles a half's running sum is the real sum of exponentials of the half relative to
    the half's maximum. -/
theorem half_sum (x : ℕ → ℝ) (o : ℕ) (a : ℕ → Fin 1024 → EReal)
    (ha : ∀ n, n < 8 → ∀ j : Fin 1024, a n j = ((x (o + (n * 1024 + j.val)) : ℝ) : EReal)) :
    runSum a 8 = ((rowSumExp (fun k => x (o + k)) 8192 : ℝ) : EReal) :=
  runSum_final (B := 1024) (T := 8) (C := 8192) (by norm_num) (by norm_num) (by norm_num)
    (half_tiles x o a ha)

/-! ## Merging two halves, in the real numbers -/

/-- The larger of the maxima of the two halves of a row of `N + N` columns is the row's maximum: each
    half's maximum is attained at a column of the row, and the row's maximum is attained in one of
    the halves. -/
theorem rowMax_halves (x : ℕ → ℝ) {N : ℕ} (hN : 0 < N) :
    max (rowMax x N) (rowMax (fun k => x (N + k)) N) = rowMax x (N + N) := by
  apply le_antisymm
  · refine max_le ?_ ?_
    · obtain ⟨k, hk, h⟩ := exists_rowMax_le x hN
      exact h.trans (le_rowMax x (by omega))
    · obtain ⟨k, hk, h⟩ := exists_rowMax_le (fun k => x (N + k)) hN
      have h' : x (N + k) ≤ rowMax x (N + N) := le_rowMax x (by omega)
      exact h.trans h'
  · obtain ⟨k, hk, h⟩ := exists_rowMax_le x (C := N + N) (by omega)
    by_cases hkN : k < N
    · exact h.trans (le_max_of_le_left (le_rowMax x hkN))
    · have h' : x (N + (k - N)) ≤ rowMax (fun k => x (N + k)) N :=
        le_rowMax (fun k => x (N + k)) (by omega)
      rw [Nat.add_sub_cancel' (not_lt.mp hkN)] at h'
      exact h.trans (le_max_of_le_right h')

/-- A sum of exponentials taken relative to `m` is carried to the reference point `M` by the factor
    `exp (m - M)`: `exp (f k - m) · exp (m - M) = exp (f k - M)`. -/
theorem sum_exp_rescale (f : ℕ → ℝ) (n : ℕ) (m M : ℝ) :
    (∑ k ∈ Finset.range n, Real.exp (f k - m)) * Real.exp (m - M)
      = ∑ k ∈ Finset.range n, Real.exp (f k - M) := by
  rw [Finset.sum_mul]
  refine Finset.sum_congr rfl fun k _ => ?_
  rw [← Real.exp_add]
  congr 1
  ring

/-- The sums of exponentials of the two halves, each carried from its half's maximum to the row's
    maximum, add up to the row's sum of exponentials. -/
theorem rowSumExp_halves (x : ℕ → ℝ) (N : ℕ) :
    rowSumExp x N * Real.exp (rowMax x N - rowMax x (N + N))
      + rowSumExp (fun k => x (N + k)) N
          * Real.exp (rowMax (fun k => x (N + k)) N - rowMax x (N + N))
      = rowSumExp x (N + N) := by
  unfold rowSumExp
  rw [sum_exp_rescale x N, sum_exp_rescale (fun k => x (N + k)) N]
  exact (Finset.sum_range_add (fun k => Real.exp (x k - rowMax x (N + N))) N N).symm

/-! ## Merging two halves, in the extended reals -/

/-- The inclusion of the reals in the extended reals keeps the larger of two numbers. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The merge of two real triples: if `M` is the larger of `m₀`, `m₁` and
    `L = l₀ · exp (m₀ - M) + l₁ · exp (m₁ - M)` is positive, the merged loss against a real `t` is the
    real number `M + log L - t`. -/
theorem merge_coe (m0 m1 l0 l1 M L t : ℝ) (hM : max m0 m1 = M)
    (hL : l0 * Real.exp (m0 - M) + l1 * Real.exp (m1 - M) = L) (hpos : 0 < L) :
    (max (m0 : EReal) (m1 : EReal)
        + Ideal.log ((l0 : EReal) * Ideal.exp ((m0 : EReal) - max (m0 : EReal) (m1 : EReal))
            + (l1 : EReal) * Ideal.exp ((m1 : EReal) - max (m0 : EReal) (m1 : EReal))))
      - (t : EReal)
    = ((M + Real.log L - t : ℝ) : EReal) := by
  rw [← coe_max, hM, ← EReal.coe_sub, ← EReal.coe_sub, Ideal.exp_coe, Ideal.exp_coe,
    ← EReal.coe_mul, ← EReal.coe_mul, ← EReal.coe_add, hL, Ideal.log_coe,
    if_neg (not_le.mpr hpos), ← EReal.coe_add, ← EReal.coe_sub]

/-! ## The entry at the target column -/

/-- One tile's masked sum.  The tile holds the columns `s, …, s + B - 1` and its mask is set exactly at
    the target column: if the target is one of these columns the sum has the single term `x tgt`,
    otherwise every term is `0`. -/
theorem tile_tgt {B : ℕ} (x : ℕ → ℝ) (tgt s : ℕ) (r : Fin B → EReal) (q : Fin B → Bool)
    (hr : ∀ j : Fin B, r j = ((x (s + j.val) : ℝ) : EReal))
    (hq : ∀ j : Fin B, (q j = true ↔ s + j.val = tgt)) :
    (∑ j : Fin B, if q j = true then r j else 0)
      = ((if s ≤ tgt ∧ tgt < s + B then x tgt else 0 : ℝ) : EReal) := by
  by_cases h : s ≤ tgt ∧ tgt < s + B
  · rw [if_pos h]
    obtain ⟨j0, hj0⟩ : ∃ j0 : Fin B, s + j0.val = tgt :=
      ⟨⟨tgt - s, by omega⟩, Nat.add_sub_cancel' h.1⟩
    rw [Finset.sum_eq_single j0, if_pos ((hq j0).mpr hj0), hr j0, hj0]
    · intro j _ hne
      show (if q j = true then r j else 0) = 0
      refine if_neg fun hj' => hne (Fin.ext ?_)
      have := (hq j).mp hj'
      omega
    · intro hnm
      exact absurd (Finset.mem_univ j0) hnm
  · rw [if_neg h, EReal.coe_zero]
    refine Finset.sum_eq_zero fun j _ => if_neg fun hj' => h ?_
    have := (hq j).mp hj'
    have := j.isLt
    omega

/-- After `n` tiles of a half that starts at column `o`, the running masked sum is `x tgt` if the
    target lies in the columns `o, …, o + n B - 1` gone through, and `0` otherwise. -/
theorem runTgt_eq {B T : ℕ} (x : ℕ → ℝ) (tgt o : ℕ) (a : ℕ → Fin B → EReal) (p : ℕ → Fin B → Bool)
    (ha : ∀ n, n < T → ∀ j : Fin B, a n j = ((x (o + (n * B + j.val)) : ℝ) : EReal))
    (hp : ∀ n, n < T → ∀ j : Fin B, (p n j = true ↔ o + (n * B + j.val) = tgt)) :
    ∀ n : ℕ, n ≤ T →
      runTgt a p n = ((if o ≤ tgt ∧ tgt < o + n * B then x tgt else 0 : ℝ) : EReal)
  | 0, _ => by
    rw [runTgt_zero, Nat.zero_mul, if_neg (by omega), EReal.coe_zero]
  | n + 1, h => by
    have hlt : n < T := Nat.lt_of_succ_le h
    rw [runTgt_succ, runTgt_eq x tgt o a p ha hp n (Nat.le_of_succ_le h),
      tile_tgt x tgt (o + n * B) (a n) (p n)
        (fun j => by rw [ha n hlt j, Nat.add_assoc])
        (fun j => by rw [hp n hlt j, Nat.add_assoc]),
      ← EReal.coe_add, Nat.add_mul, Nat.one_mul]
    congr 1
    split_ifs <;> first | omega | simp

/-- THE ROW'S LOSS.  `a₀`, `a₁` are the tiles of the two halves (tile `n` of half `h` holds the columns
    `8192 h + 1024 n + j`), `p₀`, `p₁` the masks (set exactly where that column is the target), `y` the
    row as the two-pass side reads it. -/
theorem nll_eq (x : ℕ → ℝ) (tgt : ℕ) (htgt : tgt < 16384)
    (a0 a1 : ℕ → Fin 1024 → EReal) (p0 p1 : ℕ → Fin 1024 → Bool)
    (ha0 : ∀ n, n < 8 → ∀ j : Fin 1024, a0 n j = ((x (n * 1024 + j.val) : ℝ) : EReal))
    (ha1 : ∀ n, n < 8 → ∀ j : Fin 1024, a1 n j = ((x (8192 + (n * 1024 + j.val)) : ℝ) : EReal))
    (hp0 : ∀ n, n < 8 → ∀ j : Fin 1024, (p0 n j = true ↔ n * 1024 + j.val = tgt))
    (hp1 : ∀ n, n < 8 → ∀ j : Fin 1024, (p1 n j = true ↔ 8192 + (n * 1024 + j.val) = tgt))
    (y : Fin 16384 → EReal) (hy : ∀ k : Fin 16384, y k = ((x k.val : ℝ) : EReal)) :
    (max (runMax a0 8) (runMax a1 8)
        + Ideal.log (runSum a0 8 * Ideal.exp (runMax a0 8 - max (runMax a0 8) (runMax a1 8))
            + runSum a1 8 * Ideal.exp (runMax a1 8 - max (runMax a0 8) (runMax a1 8))))
      - (runTgt a0 p0 8 + runTgt a1 p1 8)
    = -((((x tgt : ℝ) : EReal) - max ⊥ ((Finset.univ : Finset (Fin 16384)).fold max ⊥ y))
        - Ideal.log (0 + ∑ k : Fin 16384,
            Ideal.exp (y k - max ⊥ ((Finset.univ : Finset (Fin 16384)).fold max ⊥ y)))) := by
  -- the first half starts at column 0
  have hx0 : (fun k => x (0 + k)) = x := funext fun k => congrArg x (Nat.zero_add k)
  have ha0' : ∀ n, n < 8 → ∀ j : Fin 1024,
      a0 n j = ((x (0 + (n * 1024 + j.val)) : ℝ) : EReal) :=
    fun n hn j => by rw [Nat.zero_add]; exact ha0 n hn j
  have hp0' : ∀ n, n < 8 → ∀ j : Fin 1024, (p0 n j = true ↔ 0 + (n * 1024 + j.val) = tgt) :=
    fun n hn j => by rw [Nat.zero_add]; exact hp0 n hn j
  -- each half's running maximum and sum are the real ones of that half
  have hm0 : runMax a0 8 = ((rowMax x 8192 : ℝ) : EReal) := by
    have h := half_max x 0 a0 ha0'
    rwa [hx0] at h
  have hs0 : runSum a0 8 = ((rowSumExp x 8192 : ℝ) : EReal) := by
    have h := half_sum x 0 a0 ha0'
    rwa [hx0] at h
  have hm1 : runMax a1 8 = ((rowMax (fun k => x (8192 + k)) 8192 : ℝ) : EReal) :=
    half_max x 8192 a1 ha1
  have hs1 : runSum a1 8 = ((rowSumExp (fun k => x (8192 + k)) 8192 : ℝ) : EReal) :=
    half_sum x 8192 a1 ha1
  -- the target column lies in exactly one half, so the two masked sums add up to its entry
  have ht : runTgt a0 p0 8 + runTgt a1 p1 8 = ((x tgt : ℝ) : EReal) := by
    rw [runTgt_eq (T := 8) x tgt 0 a0 p0 ha0' hp0' 8 le_rfl,
      runTgt_eq (T := 8) x tgt 8192 a1 p1 ha1 hp1 8 le_rfl, ← EReal.coe_add]
    congr 1
    split_ifs <;> first | omega | simp
  -- the merged maximum and sum are the whole row's
  have hM : max (rowMax x 8192) (rowMax (fun k => x (8192 + k)) 8192) = rowMax x 16384 :=
    rowMax_halves x (N := 8192) (by norm_num)
  have hL : rowSumExp x 8192 * Real.exp (rowMax x 8192 - rowMax x 16384)
      + rowSumExp (fun k => x (8192 + k)) 8192
          * Real.exp (rowMax (fun k => x (8192 + k)) 8192 - rowMax x 16384)
      = rowSumExp x 16384 :=
    rowSumExp_halves x 8192
  rw [hm0, hm1, hs0, hs1, ht,
    merge_coe _ _ _ _ _ _ (x tgt) hM hL (rowSumExp_pos x (by norm_num)),
    refLogp_eq (C := 16384) (x := x) (by norm_num) y hy (x tgt), ← EReal.coe_neg]
  congr 1
  ring

end CeSpec

end
-- ==== Proof.KernelValue.lean ====
/-
  One batch row of the kernel, at the ideal instance.

  Fix a batch row `b`.  At grid point `k` (tile `k mod 8` of half `k / 8` of the bank) the kernel sees
  the 1024 scaled logits of the row against the bank rows `1024 k, …, 1024 k + 1023` (`tileAt`) and the
  mask of the one column, if any, that is the row's target class (`maskAt`).  Its three scratch
  columns, read at row `b`, then follow exactly the recursions of the online log-sum-exp
  (`OnlineLse.runMax`, `OnlineLse.runSum`) and of the masked sum (`CeSpec.runTgt`) over the eight
  tiles of a half, restarted at each half.  With finite inputs the tile's entries are the real logits
  `CeVocab.logit`, and the mask is set exactly at the target class `CeVocab.tgtOf` of the row's label,
  so the merged loss of the row is the two-pass negated log-probability (`CeSpec.nll_eq`).
-/
import proofs.«408512_j5033701671602_2_alg».proof.Proof.Tail
import proofs.«408512_j5033701671602_2_alg».proof.Proof.StepApply
import proofs.«408512_j5033701671602_2_alg».proof.Proof.Mask
import proofs.«408512_j5033701671602_2_alg».proof.Proof.LogitsK
import proofs.«408512_j5033701671602_2_alg».proof.Proof.Blocks
import proofs.«408512_j5033701671602_2_alg».proof.Proof.Spec
import proofs.«408512_j5033701671602_2_alg».proof.Proof.Targets

noncomputable section

namespace Cert.KernelIdeal.RowValue

open Cert.KernelIdeal Cert.KernelIdeal.Gen
open Cert.KernelIdeal.PieceValue Cert.KernelIdeal.ChainValue Cert.KernelIdeal.ArrValue Cert.KernelIdeal.TailValue
open Cert.KernelIdeal.StepValue Cert.KernelIdeal.MaskValue Cert.KernelIdeal.LogitValue Cert.KernelIdeal.BlockValue
open Idealize.ShloMosaic Idealize.ShloMosaic.TcCoe Idealize.SL.Sem Idealize.ShloMosaic.ValueIdx
open OnlineLse CeSpec CeVocab
open scoped BigOperators

variable (m : (ℓ : Loc nD τ sig) → Buf (Elt Ideal) ℓ) (c : Dev nD) (b : Fin 256)

/-- Grid point `k` (point 0 beyond the grid, never used). -/
def pt (k : ℕ) : Fin cfg0.N :=
  if h : k < cfg0.N then ⟨k, h⟩ else ⟨0, by rw [show cfg0.N = 16 from N_0]; decide⟩

theorem pt_eq (k : ℕ) (h : k < cfg0.N) : pt k = ⟨k, h⟩ := dif_pos h

theorem pt_val (k : ℕ) (h : k < 16) : (pt k).val = k := by
  rw [pt_eq k (by rw [show cfg0.N = 16 from N_0]; exact h)]

/-- Row `b`'s scaled logits against the tile of point `k`. -/
def tileAt (k : ℕ) (j : Fin 1024) : EReal :=
  k0_pay8 (F := Ideal) (xblk m c (pt k)) (wblk m c (pt k)) (ix2 b j)

/-- Whether column `j` of the tile of point `k` is row `b`'s target column. -/
def maskAt (k : ℕ) (j : Fin 1024) : Bool :=
  decide (k0_pay9 (F := Ideal) (grid0.coords (pt k)) (tblk m c (pt k)) (ix2 b j) = 1#1)

/-- The tiles and masks of half `h`. -/
def tiles (h : ℕ) : ℕ → Fin 1024 → EReal := fun n j => tileAt m c b (8 * h + n) j
def masks (h : ℕ) : ℕ → Fin 1024 → Bool := fun n j => maskAt m c b (8 * h + n) j

/-- A resetting point is an updating point started from the reset values. -/
theorem fresh_eq_next (t : Fin cfg0.N) :
    fresh m c t = next m c t (k0_pay5 (F := Ideal), k0_pay6 (F := Ideal), k0_pay7 (F := Ideal)) := rfl

/-- One point's update of the three columns, read at row `b`. -/
theorem next_apply (k : ℕ) (p : Vec Ideal S256x1 .f32 × Vec Ideal S256x1 .f32 × Vec Ideal S256x1 .f32) :
    (next m c (pt k) p).1 (ix2 b z0)
        = max (p.1 (ix2 b z0)) ((Finset.univ : Finset (Fin 1024)).fold max ⊥ fun j => tileAt m c b k j)
    ∧ (next m c (pt k) p).2.1 (ix2 b z0)
        = Ideal.exp (p.1 (ix2 b z0) - (next m c (pt k) p).1 (ix2 b z0)) * p.2.1 (ix2 b z0)
          + ∑ j : Fin 1024, Ideal.exp (tileAt m c b k j - (next m c (pt k) p).1 (ix2 b z0))
    ∧ (next m c (pt k) p).2.2 (ix2 b z0)
        = p.2.2 (ix2 b z0) + ∑ j : Fin 1024, if maskAt m c b k j = true then tileAt m c b k j else 0 := by
  refine ⟨?_, ?_, ?_⟩
  · exact stepM_apply (xblk m c (pt k)) (wblk m c (pt k)) p.1 b
  · exact stepL_apply (xblk m c (pt k)) (wblk m c (pt k)) p.1 p.2.1 b
  · refine (stepS_apply (grid0.coords (pt k)) (xblk m c (pt k)) (wblk m c (pt k)) (tblk m c (pt k)) p.2.2 b).trans ?_
    refine congrArg (p.2.2 (ix2 b z0) + ·) (Finset.sum_congr rfl fun j _ => ?_)
    unfold maskAt tileAt
    simp only [decide_eq_true_eq]

/-- The point before a resetting point does not matter: at a point `≡ 0 (mod 8)` the columns are fresh. -/
theorem chain_at_reset (k : ℕ) (hk : k < cfg0.N) (h0 : k % 8 = 0) : chain m c k hk = fresh m c ⟨k, hk⟩ := by
  cases k with
  | zero => exact chain_zero m c hk
  | succ n => exact chain_reset m c n hk h0

/-- THE RECURSION: over the eight tiles of half `h` the three columns at row `b` are the running maximum, the
    running sum of exponentials and the running masked sum of the half's tiles. -/
theorem chain_run (h : ℕ) : ∀ n : ℕ, n < 8 → ∀ hk : 8 * h + n < cfg0.N,
    (chain m c (8 * h + n) hk).1 (ix2 b z0) = runMax (tiles m c b h) (n + 1)
    ∧ (chain m c (8 * h + n) hk).2.1 (ix2 b z0) = runSum (tiles m c b h) (n + 1)
    ∧ (chain m c (8 * h + n) hk).2.2 (ix2 b z0) = runTgt (tiles m c b h) (masks m c b h) (n + 1)
  | 0, _, hk => by
    have e : chain m c (8 * h + 0) hk
        = next m c (pt (8 * h + 0)) (k0_pay5 (F := Ideal), k0_pay6 (F := Ideal), k0_pay7 (F := Ideal)) := by
      rw [chain_at_reset m c (8 * h + 0) hk (by omega), fresh_eq_next, pt_eq (8 * h + 0) hk]
    obtain ⟨a1, a2, a3⟩ := next_apply m c b (8 * h + 0) (k0_pay5 (F := Ideal), k0_pay6 (F := Ideal), k0_pay7 (F := Ideal))
    rw [e]
    have e1 : (next m c (pt (8 * h + 0)) (k0_pay5 (F := Ideal), k0_pay6 (F := Ideal), k0_pay7 (F := Ideal))).1 (ix2 b z0)
        = runMax (tiles m c b h) 1 := by
      rw [a1]; dsimp only; rw [pay5_apply]; rfl
    refine ⟨e1, ?_, ?_⟩
    · rw [a2, e1]; dsimp only; rw [pay5_apply, pay6_apply]; rfl
    · rw [a3]; dsimp only; rw [pay7_apply]; rfl
  | n + 1, hn, hk => by
    have hk' : 8 * h + n < cfg0.N := by omega
    obtain ⟨i1, i2, i3⟩ := chain_run h n (by omega) hk'
    have e : chain m c (8 * h + (n + 1)) hk = next m c (pt (8 * h + (n + 1))) (chain m c (8 * h + n) hk') := by
      rw [pt_eq (8 * h + (n + 1)) hk]
      exact chain_step m c (8 * h + n) hk (by omega)
    obtain ⟨a1, a2, a3⟩ := next_apply m c b (8 * h + (n + 1)) (chain m c (8 * h + n) hk')
    rw [e]
    have e1 : (next m c (pt (8 * h + (n + 1))) (chain m c (8 * h + n) hk')).1 (ix2 b z0)
        = runMax (tiles m c b h) (n + 1 + 1) := by
      rw [a1, i1]; rfl
    refine ⟨e1, ?_, ?_⟩
    · rw [a2, e1, i1, i2]; rfl
    · rw [a3, i3]; rfl

/-! ## With finite inputs: the tiles are the real logits, the masks mark the target class -/

/-- The grid coordinates of a point: its half and its tile within the half. -/
theorem coords_facts : ∀ t : Fin cfg0.N, 8 * ((grid0.coords t) 0).val + ((grid0.coords t) 1).val = t.val :=
  (by decide +kernel : ∀ t : Fin grid0.N, _)

section Real

variable (X : Fin 256 → Fin 2048 → ℝ) (W : Fin 16384 → Fin 2048 → ℝ)
variable (hX : ∀ (r : Fin 256) (q : Fin 2048),
  (m ((c : Thread nD τ).loc main_arg0) : FVec Ideal S256x2048 .f32) (ix2 r q) = ((X r q : ℝ) : EReal))
variable (hW : ∀ (r : Fin 16384) (q : Fin 2048),
  (m ((c : Thread nD τ).loc main_arg2) : FVec Ideal S16384x2048 .f32) (ix2 r q) = ((W r q : ℝ) : EReal))

include hX hW in
/-- The tile of point `k` holds the row's real logits against bank rows `1024 k + j`. -/
theorem tileAt_eq (k : ℕ) (hk : k < 16) (j : Fin 1024) :
    tileAt m c b k j = ((logit X W b (1024 * k + j.val) : ℝ) : EReal) := by
  have hlt : 1024 * k + j.val < 16384 := by have := j.isLt; omega
  unfold tileAt
  refine (tile_apply X (fun r q => W ⟨1024 * k + r.val, by have := r.isLt; omega⟩ q) (xblk m c (pt k)) (wblk m c (pt k))
    (fun r q => ?_) (fun r q => ?_) b j).trans ?_
  · exact ((xblk_apply m c (pt k) r q).trans (congrFun (V_main_arg0 m c) (ix2 r q))).trans (hX r q)
  · have hr : 1024 * (pt k).val + r.val < 16384 := by rw [pt_val k hk]; have := r.isLt; omega
    refine ((wblk_apply m c (pt k) r q hr).trans (congrFun (V_main_arg2 m c) _)).trans ?_
    have e : (⟨1024 * (pt k).val + r.val, hr⟩ : Fin 16384) = ⟨1024 * k + r.val, by have := r.isLt; omega⟩ :=
      Fin.ext (by show 1024 * (pt k).val + r.val = 1024 * k + r.val; rw [pt_val k hk])
    rw [e]
    exact hW _ q
  · unfold logit
    rw [dif_pos hlt]

/-- The mask of point `k` is set at column `j` exactly when bank row `1024 k + j` is the row's target class. -/
theorem maskAt_iff (k : ℕ) (hk : k < 16) (j : Fin 1024) :
    maskAt m c b k j = true ↔ 1024 * k + j.val = tgtOf (labels m c (ix1 b)) := by
  unfold maskAt
  rw [decide_eq_true_eq, mask_apply]
  have hc := coords_facts (pt k)
  rw [pt_val k hk] at hc
  have ht : (tblk m c (pt k) : Vec Ideal S256x1 .i32) (ix2 b ⟨0, Nat.one_pos⟩) = clipW (labels m c (ix1 b)) := by
    exact ((tblk_apply m c (pt k) b ⟨0, Nat.one_pos⟩).trans (congrFun (V_tc m c) _)).trans (tcVec_apply (labels m c) b)
  rw [ht, hc]
  show k * 1024 + j.val = tgtOf (labels m c (ix1 b)) ↔ _
  constructor <;> intro h <;> omega

include hX hW in
/-- THE ROW: the merged loss of batch row `b` is the negated two-pass log-probability of its target class. -/
theorem row_nll :
    nllOf (result m c) (ix1 b)
      = -((((logit X W b (tgtOf (labels m c (ix1 b))) : ℝ) : EReal)
            - max ⊥ ((Finset.univ : Finset (Fin 16384)).fold max ⊥ fun k => ((logit X W b k.val : ℝ) : EReal)))
          - Ideal.log (0 + ∑ k : Fin 16384, Ideal.exp (((logit X W b k.val : ℝ) : EReal)
              - max ⊥ ((Finset.univ : Finset (Fin 16384)).fold max ⊥ fun k => ((logit X W b k.val : ℝ) : EReal))))) := by
  have hN : cfg0.N = 16 := N_0
  -- the six entries of the result array at row b
  have entry : ∀ h : Fin 2,
      result m c (ix3 h (0 : Fin 3) b) = runMax (tiles m c b h.val) 8
      ∧ result m c (ix3 h (1 : Fin 3) b) = runSum (tiles m c b h.val) 8
      ∧ result m c (ix3 h (2 : Fin 3) b) = runTgt (tiles m c b h.val) (masks m c b h.val) 8 := by
    intro h
    have hk : 8 * h.val + 7 < cfg0.N := by rw [hN]; have := h.isLt; omega
    obtain ⟨r1, r2, r3⟩ := chain_run m c b h.val 7 (by decide) hk
    refine ⟨?_, ?_, ?_⟩
    · exact (pack_apply_0 _ _ _ b).trans r1
    · exact (pack_apply_1 _ _ _ b).trans r2
    · exact (pack_apply_2 _ _ _ b).trans r3
  obtain ⟨m0, l0, s0⟩ := entry 0
  obtain ⟨m1, l1, s1⟩ := entry 1
  rw [nllOf_apply, m0, l0, s0, m1, l1, s1]
  exact nll_eq (logit X W b) (tgtOf (labels m c (ix1 b))) (tgtOf_lt _)
    (tiles m c b 0) (tiles m c b 1) (masks m c b 0) (masks m c b 1)
    (fun n hn j => by
      show tileAt m c b (8 * 0 + n) j = _
      rw [tileAt_eq m c b X W hX hW (8 * 0 + n) (by omega) j]
      congr 2; omega)
    (fun n hn j => by
      show tileAt m c b (8 * 1 + n) j = _
      rw [tileAt_eq m c b X W hX hW (8 * 1 + n) (by omega) j]
      congr 2; omega)
    (fun n hn j => by
      show maskAt m c b (8 * 0 + n) j = true ↔ _
      rw [maskAt_iff m c b (8 * 0 + n) (by omega) j]
      constructor <;> intro h <;> omega)
    (fun n hn j => by
      show maskAt m c b (8 * 1 + n) j = true ↔ _
      rw [maskAt_iff m c b (8 * 1 + n) (by omega) j]
      constructor <;> intro h <;> omega)
    (fun k => ((logit X W b k.val : ℝ) : EReal)) (fun k => rfl)

end Real

end Cert.KernelIdeal.RowValue

end
-- ==== Proof.RefValue.lean ====
/-
  The reference program's value, read stage by stage on the extended reals.

  The reference forms the logits `z = (inputs · featuresᵀ) / 0.05` (256 rows of 16384 columns), takes the
  row-wise log-softmax `(z - M) - log S` with `M = max ⊥ (the fold of max from ⊥ over the row)` and
  `S = 0 + ∑ exp (z - M)`, reads it at each row's target column, negates it, and averages over the rows that count.

  The integer side.  A label word `w` is shifted (`w - 1`, the special label sent to the ignored class) and then
  clamped into `[0, 16383]`; the clamped class is what the gather is given as a start index.  Because it is clamped,
  it is never negative, so the wrap-around of a negative index (`index + 16384`) is never taken; it lies in
  `[0, 16383]`, so the in-bounds mask is `1` and the select on the mask takes the gathered value, never the
  not-a-number constant; and the gather's own clamp of the start index into `[0, 16383]` leaves it unchanged.
  Hence row `b` reads column `tgtOf` of its label word.

  The float side.  The row maximum is a reduction by `max` from `-∞` over the row's columns, joined once more
  with `-∞`; the row sum is the host's sum from `0` of the exponentials of the shifted logits.
-/
import proofs.«408512_j5033701671602_2_alg».proof.Proof.RefStages
import proofs.«408512_j5033701671602_2_alg».proof.Proof.Vocab
import proofs.«408512_j5033701671602_2_alg».proof.Proof.LibOnlineLse
import proofs.«408512_j5033701671602_2_alg».proof.Proof.Targets
import Idealize.ShloMosaic.Lib.ValueIdx
import Idealize.ShloMosaic.PureOps.Reduce
import Idealize.ShloMosaic.PureOps.Ideal.Laws
import Mathlib.Data.Finset.Fold

noncomputable section

namespace Cert.ReferenceIdeal.RefValue

open Cert.ReferenceIdeal Cert.ReferenceIdeal.Gen Cert.ReferenceIdeal.Stage Idealize.ShloMosaic Idealize.ShloMosaic.ValueIdx CeVocab
open scoped BigOperators

/-! ## The integer side: the class every row reads -/

/-- The shifted label of a row: the label less one, the special label sent to the ignored class. -/
theorem shift_apply (x1 : (⟨S256, .i32⟩ : BufTy).Contents (Elt Ideal)) (i : S256.Idx) :
    val_main_v4 (F := Ideal) x1 i = shiftW (x1 i) := by
  unfold shiftW
  rw [val_main_v4_apply, val_main_v3_apply, val_main_v1_apply, val_main_v0_apply, val_main_c_apply,
    val_main_v2_apply, val_main_c_0_apply, val_main_call0_v1_apply, val_main_call0_v0_apply, val_main_c_1_apply]

/-- Whether a row counts: its shifted label is non-negative and is not the ignored class. -/
theorem valid_apply (x1 : (⟨S256, .i32⟩ : BufTy).Contents (Elt Ideal)) (b : Fin 256) :
    val_main_v9 (F := Ideal) x1 (ix1 b) = validW (x1 (ix1 b)) := by
  unfold validW
  rw [val_main_v9_apply, val_main_v6_apply, val_main_v8_apply, shift_apply, val_main_v5_apply, val_main_c_2_apply,
    val_main_v7_apply, val_main_c_3_apply]

/-- The clamped class of a row. -/
theorem clip_apply (x1 : (⟨S256, .i32⟩ : BufTy).Contents (Elt Ideal)) (i : S256.Idx) :
    val_main_v15 (F := Ideal) x1 i = clipW (x1 i) := by
  unfold clipW
  rw [val_main_v15_apply, val_main_call2_v4_apply, val_main_call2_v3_apply, val_main_c_5_apply,
    val_main_call2_v2_apply, val_main_call2_v1_apply, val_main_call2_v0_apply, val_main_c_4_apply, shift_apply]

/-- The index handed to the gather is the clamped class itself: it is never negative, so the wrap-around of a
    negative index is not taken. -/
theorem wrapped_apply (x1 : (⟨S256, .i32⟩ : BufTy).Contents (Elt Ideal)) (j : S256x1.Idx) :
    val_main_call3_v4 (F := Ideal) x1 j = clipW (x1 (idx_main_v16 j)) := by
  rw [val_main_call3_v4_apply, val_main_call3_v1_apply, val_main_v16_apply, clip_apply, val_main_call3_v0_apply,
    val_main_call3_c_apply, clipW_slt_zero, select_zero]

/-- The start index of the gather, at any place of the start-index array. -/
theorem startIdx_apply (x1 : (⟨S256, .i32⟩ : BufTy).Contents (Elt Ideal)) (i : S256x1x1.Idx) :
    val_main_call3_v5 (F := Ideal) x1 i = clipW (x1 (idx_main_v16 (idx_main_call3_v5 i))) := by
  rw [val_main_call3_v5_apply, wrapped_apply]

/-- Row `b`'s start index is the clamped class of row `b`'s label. -/
theorem startIdx_row (x1 : (⟨S256, .i32⟩ : BufTy).Contents (Elt Ideal)) (b : Fin 256) :
    val_main_call3_v5 (F := Ideal) x1 (ix3 b (0 : Fin 1) (0 : Fin 1)) = clipW (x1 (ix1 b)) := by
  rw [startIdx_apply]
  refine congrArg (fun q => clipW (x1 q)) (funext fun a => ?_)
  match a with
  | ⟨0, _⟩ => exact Fin.ext (by show ((b.val * 1 + 0) * 1 + 0) / 1 = b.val; omega)

/-- Every start index is in bounds: at least `0` and at most `16383`. -/
theorem inBounds_apply (x1 : (⟨S256, .i32⟩ : BufTy).Contents (Elt Ideal)) (i : S256x1x1.Idx) :
    val_main_call3_v11 (F := Ideal) x1 i = 1#1 := by
  rw [val_main_call3_v11_apply, val_main_call3_v7_apply, val_main_call3_v10_apply, startIdx_apply,
    val_main_call3_v6_apply, val_main_call3_c_2_apply, val_main_call3_v9_apply, val_main_call3_v8_apply,
    val_main_call3_c_1_apply, clipW_sge_zero, clipW_sle_max]
  decide

/-- A fold of `and` from the bit `1` over bits that are all `1` is `1`. -/
theorem fold_andi_one {ι : Type} (s : Finset ι) (f : ι → BitVec 1) (init : BitVec 1) (hi : init = 1#1)
    (hf : ∀ k ∈ s, f k = 1#1) : s.fold IntOp.andi init f = 1#1 := by
  classical
  subst hi
  induction s using Finset.induction_on with
  | empty => exact Finset.fold_empty
  | insert a s ha ih =>
    rw [Finset.fold_insert ha, hf a (Finset.mem_insert_self a s),
      ih fun k hk => hf k (Finset.mem_insert_of_mem hk)]
    decide

/-- The in-bounds mask, the `and` over the (one-place) index-vector axis, is `1` on every row. -/
theorem mask_apply (x1 : (⟨S256, .i32⟩ : BufTy).Contents (Elt Ideal)) (j : S256x1.Idx) :
    val_main_call3_v12 (F := Ideal) x1 j = 1#1 := by
  unfold val_main_call3_v12
  have hR : S256x1x1.Reduces [2] S256x1 := by decide
  rw [Host.reduce_eq_fold_single IntOp.andi _ _ reducesTo_S256x1x1_S256x1_d2 hR h_S_ j]
  exact fold_andi_one _ _ _ (val_main_call3_c_3_apply (F := Ideal) _) (fun k _ => inBounds_apply x1 _)

/-! ## The gather, read at a row -/

/-- On the batching axis the gather reads the result's own row. -/
theorem gather_row (idx : IVec S256x1x1 32) (b : Fin 256) :
    (gather_S256x16384_S256x1x1_S256x1_n_1_0_0_1_2_11.operandIdx (ix2 b (0 : Fin 1)) idx 0).val = b.val := by
  show gather_S256x16384_S256x1x1_S256x1_n_1_0_0_1_2_11.start (ix2 b (0 : Fin 1)) idx 0
      + gather_S256x16384_S256x1x1_S256x1_n_1_0_0_1_2_11.batchCoord (ix2 b (0 : Fin 1)) 0
      + gather_S256x16384_S256x1x1_S256x1_n_1_0_0_1_2_11.offCoord (ix2 b (0 : Fin 1)) 0 = b.val
  have hb : (0 : Fin S256x16384.rank) ∈ gather_S256x16384_S256x1x1_S256x1_n_1_0_0_1_2_11.operandBatchingDims := by decide
  rw [GatherDims.start_batching _ _ _ _ hb,
    GatherDims.offCoord_eq_zero _ _ _ (fun h => ((GatherDims.mem_sKept _ _).mp h).2 hb)]
  unfold GatherDims.batchCoord
  rw [dif_pos hb, Nat.zero_add, Nat.add_zero]
  rfl

/-- On the collapsed axis the gather reads the column its start index names, read signed and clamped. -/
theorem gather_col (idx : IVec S256x1x1 32) (b : Fin 256) :
    (gather_S256x16384_S256x1x1_S256x1_n_1_0_0_1_2_11.operandIdx (ix2 b (0 : Fin 1)) idx 1).val
      = min (idx (ix3 b (0 : Fin 1) (0 : Fin 1))).toInt.toNat 16383 := by
  show gather_S256x16384_S256x1x1_S256x1_n_1_0_0_1_2_11.start (ix2 b (0 : Fin 1)) idx 1
      + gather_S256x16384_S256x1x1_S256x1_n_1_0_0_1_2_11.batchCoord (ix2 b (0 : Fin 1)) 1
      + gather_S256x16384_S256x1x1_S256x1_n_1_0_0_1_2_11.offCoord (ix2 b (0 : Fin 1)) 1 = _
  have hm : (1 : Fin S256x16384.rank) ∈ gather_S256x16384_S256x1x1_S256x1_n_1_0_0_1_2_11.startIndexMap := by decide
  have hnb : (1 : Fin S256x16384.rank) ∉ gather_S256x16384_S256x1x1_S256x1_n_1_0_0_1_2_11.operandBatchingDims := by decide
  have hc : (1 : Fin S256x16384.rank) ∈ gather_S256x16384_S256x1x1_S256x1_n_1_0_0_1_2_11.collapsedSliceDims := by decide
  rw [GatherDims.batchCoord_eq_zero _ _ _ hnb,
    GatherDims.offCoord_eq_zero _ _ _ (fun h => ((GatherDims.mem_sKept _ _).mp h).1 hc)]
  unfold GatherDims.start
  rw [dif_pos hm]
  have hsi : gather_S256x16384_S256x1x1_S256x1_n_1_0_0_1_2_11.siIdx (ix2 b (0 : Fin 1))
      ⟨List.idxOf (1 : Fin S256x16384.rank) gather_S256x16384_S256x1x1_S256x1_n_1_0_0_1_2_11.startIndexMap,
        List.idxOf_lt_length_iff.2 hm⟩ = ix3 b (0 : Fin 1) (0 : Fin 1) := by
    funext c; refine Fin.ext ?_
    match c with
    | ⟨0, _⟩ => rfl
    | ⟨1, _⟩ => rfl
    | ⟨2, _⟩ => rfl
  rw [hsi]
  rfl

/-- The gather of the log-probabilities: result row `b` reads the operand's row `b` at the column its start index
    names, read signed and clamped into `[0, 16383]`. -/
theorem gather_read {α : Type} (y : S256x16384.Idx → α) (idx : IVec S256x1x1 32) (b : Fin 256) :
    Host.gather gather_S256x16384_S256x1x1_S256x1_n_1_0_0_1_2_11 y idx (ix2 b (0 : Fin 1))
      = y (ix2 b ⟨min (idx (ix3 b (0 : Fin 1) (0 : Fin 1))).toInt.toNat 16383, by omega⟩) := by
  unfold Host.gather
  refine congrArg y (funext fun a => Fin.ext ?_)
  match a with
  | ⟨0, _⟩ => exact gather_row idx b
  | ⟨1, _⟩ => exact gather_col idx b

/-- Row `b` gathers the log-probability of its own target class. -/
theorem gathered_apply (x0 : (⟨S256x2048, .f32⟩ : BufTy).Contents (Elt Ideal)) (x1 : (⟨S256, .i32⟩ : BufTy).Contents (Elt Ideal))
    (x2 : (⟨S16384x2048, .f32⟩ : BufTy).Contents (Elt Ideal)) (b : Fin 256) :
    val_main_call3_v13 (F := Ideal) x0 x1 x2 (ix2 b (0 : Fin 1))
      = val_main_v14 (F := Ideal) x0 x2 (ix2 b ⟨tgtOf (x1 (ix1 b)), tgtOf_lt _⟩) := by
  unfold val_main_call3_v13
  generalize val_main_v14 (F := Ideal) x0 x2 = y
  rw [gather_read]
  refine congrArg (fun c => y (ix2 b c)) (Fin.ext ?_)
  show min (val_main_call3_v5 (F := Ideal) x1 (ix3 b (0 : Fin 1) (0 : Fin 1))).toInt.toNat 16383 = tgtOf (x1 (ix1 b))
  rw [startIdx_row, clipW_toInt, Int.toNat_natCast]
  exact Nat.min_eq_left (by have := tgtOf_lt (x1 (ix1 b)); omega)

/-! ## The float side: the log-softmax of a row -/

/-- The row maximum in the reference's own form: `-∞` joined with the fold of `max` from `-∞` over the row. -/
abbrev refMax (x0 : (⟨S256x2048, .f32⟩ : BufTy).Contents (Elt Ideal)) (x2 : (⟨S16384x2048, .f32⟩ : BufTy).Contents (Elt Ideal))
    (b : Fin 256) : EReal :=
  max ⊥ ((Finset.univ : Finset (Fin 16384)).fold max ⊥ fun k => val_main_v13 (F := Ideal) x0 x2 (ix2 b k))

/-- The row sum in the reference's own form: `0` plus the sum of the exponentials of the shifted logits. -/
abbrev refSum (x0 : (⟨S256x2048, .f32⟩ : BufTy).Contents (Elt Ideal)) (x2 : (⟨S16384x2048, .f32⟩ : BufTy).Contents (Elt Ideal))
    (b : Fin 256) : EReal :=
  0 + ∑ k : Fin 16384, Ideal.exp (val_main_v13 (F := Ideal) x0 x2 (ix2 b k) - refMax x0 x2 b)

/-- A maximum reduction over the columns, read at a row: the fold of `max` from the initial value over the row's entries. -/
theorem reduceMax_apply (y : S256x16384.Idx → EReal) (init : S_.Idx → EReal) (b : Fin 256) :
    Host.reduce (FloatOps.maximumf (F := Ideal) (φ := .f32)) y init reducesTo_S256x16384_S256_d1 h_S_ (ix1 b)
      = (Finset.univ : Finset (Fin 16384)).fold max (init (Shape.Idx.first h_S_)) fun k => y (ix2 b k) := by
  have hR : S256x16384.Reduces [1] S256 := by decide
  rw [Host.reduce_eq_fold_single (FloatOps.maximumf (F := Ideal) (φ := .f32)) y init reducesTo_S256x16384_S256_d1 hR h_S_ (ix1 b)]
  have hl : (y ∘ hR.lift (ix1 b)) = fun k : Fin 16384 => y (ix2 b k) :=
    funext fun k => congrArg y (funext fun a => Fin.ext (by match a with | ⟨0, _⟩ => rfl | ⟨1, _⟩ => rfl))
  rw [hl]
  exact OnlineLse.fold_maximumf_eq_fold_max (φ := .f32) _ _

/-- The row maximum the log-softmax subtracts. -/
theorem rowMax_apply (x0 : (⟨S256x2048, .f32⟩ : BufTy).Contents (Elt Ideal)) (x2 : (⟨S16384x2048, .f32⟩ : BufTy).Contents (Elt Ideal))
    (b : Fin 256) : val_main_call1_v2 (F := Ideal) x0 x2 (ix1 b) = refMax x0 x2 b := by
  rw [val_main_call1_v2_apply, val_main_call1_v1_apply, val_main_call1_cst_0_apply]
  unfold val_main_call1_v0
  rw [reduceMax_apply, val_main_call1_cst_apply]
  show max (Ideal.ofBits .f32 0xFF800000#32)
      ((Finset.univ : Finset (Fin 16384)).fold max (Ideal.ofBits .f32 0xFF800000#32) fun k => val_main_v13 (F := Ideal) x0 x2 (ix2 b k)) = _
  rw [OnlineLse.ofBits_negInf_f32]

/-- A logit less its row's maximum. -/
theorem shifted_apply (x0 : (⟨S256x2048, .f32⟩ : BufTy).Contents (Elt Ideal)) (x2 : (⟨S16384x2048, .f32⟩ : BufTy).Contents (Elt Ideal))
    (b : Fin 256) (k : Fin 16384) :
    val_main_call1_v5 (F := Ideal) x0 x2 (ix2 b k) = val_main_v13 (F := Ideal) x0 x2 (ix2 b k) - refMax x0 x2 b := by
  have hi : idx_main_call1_v3 (idx_main_call1_v4 (ix2 b k)) = ix1 b := funext fun a => match a with | ⟨0, _⟩ => rfl
  rw [val_main_call1_v5_apply, val_main_call1_v4_apply, val_main_call1_v3_apply, hi, rowMax_apply, Ideal.subf_def]

/-- The row sum the log-softmax takes the logarithm of. -/
theorem rowSum_apply (x0 : (⟨S256x2048, .f32⟩ : BufTy).Contents (Elt Ideal)) (x2 : (⟨S16384x2048, .f32⟩ : BufTy).Contents (Elt Ideal))
    (b : Fin 256) : val_main_call1_v7 (F := Ideal) x0 x2 (ix1 b) = refSum x0 x2 b := by
  rw [val_main_call1_v7_apply, val_main_call1_cst_1_apply]
  show Ideal.ofBits .f32 0x00000000#32 + _ = _
  rw [Ideal.ofBits_zero_f32]
  refine congrArg (0 + ·) (Finset.sum_congr rfl fun k _ => ?_)
  have hq : idx_main_call1_v7 (ix1 b) k = ix2 b k := funext fun a => match a with | ⟨0, _⟩ => rfl | ⟨1, _⟩ => rfl
  rw [hq, val_main_call1_v6_apply, shifted_apply, Ideal.hostUnary_exp_def]

/-- The log-probability of class `k` on row `b`. -/
theorem logp_apply (x0 : (⟨S256x2048, .f32⟩ : BufTy).Contents (Elt Ideal)) (x2 : (⟨S16384x2048, .f32⟩ : BufTy).Contents (Elt Ideal))
    (b : Fin 256) (k : Fin 16384) :
    val_main_v14 (F := Ideal) x0 x2 (ix2 b k)
      = (val_main_v13 (F := Ideal) x0 x2 (ix2 b k) - refMax x0 x2 b) - Ideal.log (refSum x0 x2 b) := by
  have hi : idx_main_call1_v8 (idx_main_call1_v10 (ix2 b k)) = ix1 b := funext fun a => match a with | ⟨0, _⟩ => rfl
  rw [val_main_v14_apply, shifted_apply, val_main_call1_v10_apply, val_main_call1_v9_apply, val_main_call1_v8_apply, hi,
    rowSum_apply, Ideal.subf_def, Ideal.hostUnary_log_def]

/-! ## The three readings -/

/-- The negated log-probability of row `b`'s target class. -/
theorem nll_apply (x0 : (⟨S256x2048, .f32⟩ : BufTy).Contents (Elt Ideal)) (x1 : (⟨S256, .i32⟩ : BufTy).Contents (Elt Ideal))
    (x2 : (⟨S16384x2048, .f32⟩ : BufTy).Contents (Elt Ideal)) (b : Fin 256) :
    val_main_v19 (F := Ideal) x0 x1 x2 (ix1 b)
      = -((val_main_v13 (F := Ideal) x0 x2 (ix2 b ⟨tgtOf (x1 (ix1 b)), tgtOf_lt _⟩)
            - max ⊥ ((Finset.univ : Finset (Fin 16384)).fold max ⊥ fun k => val_main_v13 (F := Ideal) x0 x2 (ix2 b k)))
          - Ideal.log (0 + ∑ k : Fin 16384, Ideal.exp (val_main_v13 (F := Ideal) x0 x2 (ix2 b k)
              - max ⊥ ((Finset.univ : Finset (Fin 16384)).fold max ⊥ fun k => val_main_v13 (F := Ideal) x0 x2 (ix2 b k))))) := by
  have hj : idx_main_v18 (ix1 b) = ix2 b (0 : Fin 1) :=
    funext fun a => match a with | ⟨0, _⟩ => Fin.ext (Nat.div_one _) | ⟨1, _⟩ => rfl
  rw [val_main_v19_apply, val_main_v18_apply, hj, val_main_v17_apply, mask_apply, select_one, gathered_apply, logp_apply,
    Ideal.hostNegf_def, Ideal.negf_def]

/-- The result is the mean of the negated log-probabilities over the rows that count. -/
theorem result_eq (x0 : (⟨S256x2048, .f32⟩ : BufTy).Contents (Elt Ideal)) (x1 : (⟨S256, .i32⟩ : BufTy).Contents (Elt Ideal))
    (x2 : (⟨S16384x2048, .f32⟩ : BufTy).Contents (Elt Ideal)) :
    val_main_v26 (F := Ideal) x0 x1 x2
      = meanOver bcast_S_S256 reducesTo_S256_S_d0 h_S_ natLt_1_32 (val_main_v9 (F := Ideal) x1) (val_main_v19 (F := Ideal) x0 x1 x2) := by
  unfold val_main_v26 val_main_v23 val_main_v22 val_main_call4_v1 val_main_call4_v0 val_main_cst_7 val_main_cst_8
    val_main_v25 val_main_v24 val_main_v21 val_main_v20 val_main_c_6 val_main_c_9 meanOver
  rfl

end Cert.ReferenceIdeal.RefValue

end
-- ==== Proof.LogitsR.lean ====
/-
  The reference's logits read at an index, at the ideal values (a float is an extended real, every
  operation exact).

  The reference transposes the bank `[16384, 2048]`, multiplies the activations `[256, 2048]` with it
  (second axis against first) and DIVIDES by the single-precision temperature `13421773 / 268435456`.
  Division by a nonzero real is the product with its reciprocal on every extended real, and the
  reciprocal of that temperature is `invTemp = 268435456 / 13421773`; so at row `b` and column `c` the
  result is the real logit `logit X W b c = (∑ k, X b k · W c k) · invTemp` (`ref_logit_apply`).

  The product at an index is the reference's `dot_general` read stage by stage; what is added here
  is that its operand indices, composed with the transpose's, are `(b, k)` and `(c, k)`, the value of the
  temperature's word, and the inclusion of the reals carried through the finite sum term by term.
-/
import proofs.«408512_j5033701671602_2_alg».proof.Proof.RefStages
import proofs.«408512_j5033701671602_2_alg».proof.Proof.Vocab
import proofs.«408512_j5033701671602_2_alg».proof.Proof.LibOnlineLse
import Idealize.ShloMosaic.PureOps.IdealRules
import Idealize.ShloMosaic.Lib.ValueIdx
import Idealize.ShloMosaic.Lib.Pipeline.Value
import Idealize.ShloMosaic.PureOps.Ideal.Laws

noncomputable section

open scoped BigOperators

/-! ## The reference's logits -/

namespace Cert.ReferenceIdeal.LogitValue

open Cert.ReferenceIdeal Cert.ReferenceIdeal.Gen Cert.ReferenceIdeal.Stage Idealize.ShloMosaic Idealize.ShloMosaic.ValueIdx CeVocab

/-- The reference's temperature, the single-precision number nearest to `0.05`, denotes the rational
    `13421773 / 268435456`. -/
theorem temp_val : Ideal.ofBits .f32 0x3D4CCCCD#32 = ((13421773 / 268435456 : ℝ) : EReal) := by
  simp [Ideal.ofBits, Ideal.ieee, -EReal.coe_mul]; norm_num

/-- The reciprocal of that temperature is the scale of the logits. -/
theorem one_div_temp : (1 / (13421773 / 268435456) : ℝ) = invTemp := by
  unfold invTemp; norm_num

/-- THE REFERENCE'S LOGITS AT AN INDEX: for real activations `X` and a real bank `W`, the scaled product at
    row `b` and column `c` is the real logit `logit X W b c`. -/
theorem ref_logit_apply (X : Fin 256 → Fin 2048 → ℝ) (W : Fin 16384 → Fin 2048 → ℝ)
    (x0 : (⟨S256x2048, .f32⟩ : BufTy).Contents (Elt Ideal)) (x2 : (⟨S16384x2048, .f32⟩ : BufTy).Contents (Elt Ideal))
    (hx0 : ∀ (b : Fin 256) (k : Fin 2048), x0 (ix2 b k) = ((X b k : ℝ) : EReal))
    (hx2 : ∀ (c : Fin 16384) (k : Fin 2048), x2 (ix2 c k) = ((W c k : ℝ) : EReal)) (b : Fin 256) (c : Fin 16384) :
    val_main_v13 (F := Ideal) x0 x2 (ix2 b c) = ((logit X W b c.val : ℝ) : EReal) := by
  have el : ∀ k : Fin 2048, lidx_main_v11 (ix2 b c) k = ix2 b k := fun k => funext fun a => Fin.ext (by
    match a with
    | ⟨0, _⟩ => rfl
    | ⟨1, _⟩ => rfl)
  have er : ∀ k : Fin 2048, idx_main_v10 (ridx_main_v11 (ix2 b c) k) = ix2 c k := fun k => funext fun a => Fin.ext (by
    match a with
    | ⟨0, _⟩ => rfl
    | ⟨1, _⟩ => rfl)
  rw [val_main_v13_apply, val_main_v11_apply, val_main_v12_apply, val_main_cst_apply]
  simp only [val_main_v10_apply, el, er, hx0, hx2]
  rw [Ideal.hostDivf_def, Ideal.ofBits_def, temp_val, Ideal.div_coe (by norm_num : (13421773 / 268435456 : ℝ) ≠ 0),
    one_div_temp]
  unfold logit
  rw [dif_pos c.isLt, EReal.coe_mul, OnlineLse.coe_sum]
  simp only [EReal.coe_mul, Fin.eta]

end Cert.ReferenceIdeal.LogitValue

end
-- ==== Proof.Finite.lean ====
import proofs.«408512_j5033701671602_2_alg».proof.Pre_finite_inputs
import proofs.«408512_j5033701671602_2_alg».proof.Proof.Gen.Pre_finite_inputs
import Idealize.ShloMosaic.Lib.ReduceAll
import Idealize.ShloMosaic.Lib.ValueIdx
import Idealize.ShloMosaic.PureOps.Ideal.Laws

/-!
# Finite inputs are real

The precondition "every float input is finite" says, entry by entry, `|x| < +∞` for both float
arguments. At the ideal values (extended reals) `|x| = max x (-x)`, which is `⊤` at both `⊥` and `⊤`;
so an entry with `|x| < ⊤` is the coercion of a real number.
-/

namespace CeFinite

open Idealize.ShloMosaic Idealize.ShloMosaic.ValueIdx Cert.Pre_finite_inputs

/-- The scalar shape has one index. -/
instance : Subsingleton S_.Idx := ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- An extended real whose absolute value `max x (-x)` compares below `⊤` is a real number:
    at `⊥` and at `⊤` the absolute value is `⊤` itself. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- One entry of a float array, read out of the printed elementwise test `|x| < +∞`. -/
theorem real_of_entry {s : Shape} (a : FVec Ideal s .f32) (hb : S_.BroadcastsInDim s (![] : Fin 0 → Fin s.rank))
    (i : s.Idx)
    (h : cmpf .olt (Host.absf a) (broadcastInDim s ![] hb (constant (F := Ideal) S_ .f32 0x7F800000#32)) i = 1#1) :
    ∃ r : ℝ, a i = (r : EReal) := by
  refine real_of_abs_lt_top (a i) ?_
  have e : cmpf .olt (Host.absf a) (broadcastInDim s ![] hb (constant (F := Ideal) S_ .f32 0x7F800000#32)) i
      = Ideal.cmp .olt (max (a i) (-(a i))) (Ideal.ofBits .f32 0x7F800000#32) := rfl
  rw [e, ofBits_inf] at h
  exact h

/-- From the precondition to the two real matrices behind the float inputs. -/
theorem real_of_pre (a0 : FVec Ideal S256x2048 .f32) (a1 : IVec S256 32) (a2 : FVec Ideal S16384x2048 .f32)
    (h : Cert.Pre_finite_inputs.fn (F := Ideal) a0 a1 a2 = fun _ => 1#1) :
    (∃ X : Fin 256 → Fin 2048 → ℝ, ∀ (b : Fin 256) (k : Fin 2048), a0 (ix2 b k) = ((X b k : ℝ) : EReal))
    ∧ (∃ W : Fin 16384 → Fin 2048 → ℝ, ∀ (c : Fin 16384) (k : Fin 2048), a2 (ix2 c k) = ((W c k : ℝ) : EReal)) := by
  have h0 := congrFun h ValueIdx.ix0
  dsimp only [Cert.Pre_finite_inputs.fn] at h0
  obtain ⟨hA, hW⟩ := IntOp.andi_eq_one.1 h0
  have eA : ∀ i, ∃ r : ℝ, a0 i = (r : EReal) := fun i =>
    real_of_entry a0 _ i (Host.reduce_andi_all _ _ _ _ _ hA i)
  have eW : ∀ i, ∃ r : ℝ, a2 i = (r : EReal) := fun i =>
    real_of_entry a2 _ i (Host.reduce_andi_all _ _ _ _ _ hW i)
  choose X hX using eA
  choose W hW' using eW
  exact ⟨⟨fun b k => X (ix2 b k), fun b k => hX (ix2 b k)⟩, ⟨fun c k => W (ix2 c k), fun c k => hW' (ix2 c k)⟩⟩

end CeFinite
-- ==== Proof.lean ====
/-
  A cross-entropy loss against a bank of 16384 feature rows: the kernel against its reference.

  Both programs compute, for 256 batch rows, the logits `(x · wᵀ) / T` against the 16384 rows of the
  bank, the log-softmax of each row of logits, its entry at the row's (clamped) target class, negated,
  and the mean of that over the rows whose label is valid.

  The reference does it in two passes over each whole row.  The kernel goes through the bank in 16
  tiles of 1024 rows, 8 for each half of the bank, keeping per batch row a running maximum, a running
  sum of exponentials relative to it and the logit at the target class; after the last tile of a half
  it writes the three out, and the host merges the two halves.  It multiplies by the reciprocal of the
  temperature where the reference divides; the certificate's table names the kernel's constant as the
  exact reciprocal of the reference's single-precision divisor, so on the extended reals both scale
  by the same number (`preserves` states the naming).

  With finite inputs every logit is a real number, the online recursion of each half computes the
  half's maximum and sum of exponentials, merging two halves gives the row's, and the masked sums pick
  the target's logit: the loss of each row is the same on both sides (`KernelValue`, `Spec`), the masks
  of valid rows are the same function of the labels, and the means agree.
-/
import proofs.«408512_j5033701671602_2_alg».proof.Defs
import proofs.«408512_j5033701671602_2_alg».proof.Proof.Gen.Kernel
import proofs.«408512_j5033701671602_2_alg».proof.Proof.Gen.Kernel.Frame
import proofs.«408512_j5033701671602_2_alg».proof.Proof.Gen.KernelIdeal
import proofs.«408512_j5033701671602_2_alg».proof.Proof.Gen.KernelIdeal.Frame
import proofs.«408512_j5033701671602_2_alg».proof.Proof.Gen.ReferenceIdeal
import proofs.«408512_j5033701671602_2_alg».proof.Proof.RefStages
import proofs.«408512_j5033701671602_2_alg».proof.Proof.RefRun
import proofs.«408512_j5033701671602_2_alg».proof.Proof.Gen.Pre_finite_inputs
import proofs.«408512_j5033701671602_2_alg».proof.Proof.KernelValue
import proofs.«408512_j5033701671602_2_alg».proof.Proof.RefValue
import proofs.«408512_j5033701671602_2_alg».proof.Proof.LogitsR
import proofs.«408512_j5033701671602_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx
open CeVocab

/-- The word-level kernel terminates and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference terminates and keeps its arguments: its run, the result forgotten. -/
theorem frame_ri : Cert.frame_ReferenceIdeal := fun m ρ _ =>
  (θ_run Cert.ReferenceIdeal.defs _ _).mono (fun _ h c => (h c).2) (Cert.ReferenceIdeal.RunP.run (F := Ideal) m ρ)

/-- The one named constant: the kernel's scale 20 denotes the reciprocal of the reference's divisor. -/
theorem preserves : Cert.preserves_Kernel_KernelIdeal :=
  IdealRules.named_const.statement Cert.KernelIdeal.κ "inv_temp" .f32 0x41A00000#32 ((268435456 / 13421773 : ℝ) : EReal) rfl

section Algebraic

open Cert.KernelIdeal Cert.KernelIdeal.Gen Cert.KernelIdeal.TailValue Cert.KernelIdeal.ArrValue

/-- The kernel's run with its result named: the mean over the valid rows of the merged loss. -/
theorem kernel_run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v43)
            = meanOver bcast_S_S256 reducesTo_S256_S_d0 h_S_ natLt_1_32 (validVec (labels m c)) (nllOf (result m c))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c =>
    ⟨((h c).2 main_v43 (Pipeline.mem_restRefs_of main_v43 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Algebraic

/-- From memories agreeing on the arguments, with finite float inputs, both programs end with the same mean loss. -/
theorem algebraic : Cert.algebraic_KernelIdeal_ReferenceIdeal := by
  intro m ρ m' ρ' hpre hagree
  refine ⟨fun c => meanOver Cert.KernelIdeal.Facts₀.bcast_S_S256 Cert.KernelIdeal.Facts₀.reducesTo_S256_S_d0 Cert.KernelIdeal.Facts₀.h_S_ Cert.KernelIdeal.Facts₀.natLt_1_32
      (Cert.KernelIdeal.TailValue.validVec (Cert.KernelIdeal.TailValue.labels m c))
      (Cert.KernelIdeal.TailValue.nllOf (Cert.KernelIdeal.ArrValue.result m c)), kernel_run m ρ, ?_⟩
  refine (θ_run Cert.ReferenceIdeal.defs _ _).mono (fun _ h c => ⟨(h c).1.trans ?_, (h c).2⟩)
    (Cert.ReferenceIdeal.RunP.run (F := Ideal) m' ρ')
  obtain ⟨⟨X, hX⟩, ⟨W, hW⟩⟩ := CeFinite.real_of_pre _ _ _ (hpre c)
  rw [(hagree c).1, (hagree c).2.1, (hagree c).2.2, Cert.ReferenceIdeal.RefValue.result_eq]
  have hvalid : Cert.ReferenceIdeal.Stage.val_main_v9 (F := Ideal) (m ((c.tc : Thread Cert.KernelIdeal.nD Cert.KernelIdeal.τ).loc Cert.KernelIdeal.main_arg1))
      = Cert.KernelIdeal.TailValue.validVec (Cert.KernelIdeal.TailValue.labels m c) := by
    funext i
    obtain ⟨b, rfl⟩ : ∃ b : Fin 256, i = ix1 b := ⟨i 0, eq_ix1 i⟩
    rw [Cert.ReferenceIdeal.RefValue.valid_apply, Cert.KernelIdeal.TailValue.validVec_apply]
  have hnll : Cert.ReferenceIdeal.Stage.val_main_v19 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.TailValue.nllOf (Cert.KernelIdeal.ArrValue.result m c) := by
    funext i
    obtain ⟨b, rfl⟩ : ∃ b : Fin 256, i = ix1 b := ⟨i 0, eq_ix1 i⟩
    rw [Cert.ReferenceIdeal.RefValue.nll_apply, Cert.KernelIdeal.RowValue.row_nll m c b X W hX hW]
    simp only [Cert.ReferenceIdeal.LogitValue.ref_logit_apply X W _ _ hX hW]
  rw [hvalid, hnll]

/-- The certificate. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
